-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S4x8192 : Shape := ⟨2, ![4, 8192]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  bcast_S_S4x8192 : S_.BroadcastsInDim S4x8192 (![] : Fin 0 → Fin S4x8192.rank)
  reducesTo_S4x8192_S_d0_1 : S4x8192.ReducesTo [0, 1] S_

variable [Facts]

def fn {F : FTy → Type} [FloatOps F] (main_arg0 : FVec F S4x8192x3 .f32) (main_arg1 : FVec F S4x8192x3 .f32) (main_arg2 : FVec F S4x8192 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  let main_v9 : FVec F S4x8192 .f32 := Host.absf main_arg2
  let main_cst_2 : FVec F S_ .f32 := constant S_ .f32 0x7F800000#32
  let main_v10 : FVec F S4x8192 .f32 := broadcastInDim S4x8192 ![] bcast_S_S4x8192 main_cst_2
  let main_v11 : IVec S4x8192 1 := cmpf .olt main_v9 main_v10
  let main_c_3 : IVec S_ 1 := constantI S_ 1 1#1
  let main_v12 : IVec S_ 1 := (fun x v => Host.reduce IntOp.andi x v reducesTo_S4x8192_S_d0_1 h_S_) main_v11 main_c_3
  let main_v13 : IVec S_ 1 := andi main_v8 main_v12
  main_v13
-- ==== Kernel.lean ====
abbrev S4x8192x3 : Shape := ⟨3, ![4, 8192, 3]⟩
abbrev S4x8192 : Shape := ⟨2, ![4, 8192]⟩
abbrev S4x8192x1 : Shape := ⟨3, ![4, 8192, 1]⟩
abbrev S4x1x8192 : Shape := ⟨3, ![4, 1, 8192]⟩
abbrev S4x1x1 : Shape := ⟨3, ![4, 1, 1]⟩
abbrev S1x256x3 : Shape := ⟨3, ![1, 256, 3]⟩
abbrev S1x8192x3 : Shape := ⟨3, ![1, 8192, 3]⟩
abbrev S1x256x1 : Shape := ⟨3, ![1, 256, 1]⟩
abbrev S1x1x8192 : Shape := ⟨3, ![1, 1, 8192]⟩
abbrev S1x1x1 : Shape := ⟨3, ![1, 1, 1]⟩
abbrev S256x3 : Shape := ⟨2, ![256, 3]⟩
abbrev S8192x3 : Shape := ⟨2, ![8192, 3]⟩
abbrev S256 : Shape := ⟨1, ![256]⟩
abbrev S256x1 : Shape := ⟨2, ![256, 1]⟩
abbrev S1x3 : Shape := ⟨2, ![1, 3]⟩
abbrev S1x8192 : Shape := ⟨2, ![1, 8192]⟩
abbrev S256x8192 : Shape := ⟨2, ![256, 8192]⟩
abbrev S8192 : Shape := ⟨1, ![8192]⟩
abbrev S1 : Shape := ⟨1, ![1]⟩
abbrev S_ : Shape := ⟨0, ![]⟩

abbrev nBuf : Space → Nat
  | .hbm => 31
  | .vmem => 11
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .f32⟩
  | .hbm, ⟨3, _⟩ => ⟨S4x8192x1, .f32⟩
  | .hbm, ⟨4, _⟩ => ⟨S4x8192x1, .f32⟩
  | .hbm, ⟨5, _⟩ => ⟨S4x1x8192, .f32⟩
  | .hbm, ⟨6, _⟩ => ⟨S4x1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1x256x3, .f32⟩
  | .local _ .vmem, ⟨1, _⟩ => ⟨S1x256x3, .f32⟩
  | .local _ .vmem, ⟨2, _⟩ => ⟨S1x8192x3, .f32⟩
  | .local _ .vmem, ⟨3, _⟩ => ⟨S1x256x1, .f32⟩
  | .local _ .vmem, ⟨4, _⟩ => ⟨S1x256x1, .f32⟩
  | .local _ .vmem, ⟨5, _⟩ => ⟨S1x256x1, .f32⟩
  | .local _ .vmem, ⟨6, _⟩ => ⟨S1x256x1, .f32⟩
  | .local _ .vmem, ⟨7, _⟩ => ⟨S1x1x8192, .f32⟩
  | .local _ .vmem, ⟨8, _⟩ => ⟨S1x1x8192, .f32⟩
  | .local _ .vmem, ⟨9, _⟩ => ⟨S1x1x1, .f32⟩
  | .local _ .vmem, ⟨10, _⟩ => ⟨S1x1x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_cst_4 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v7 : Ref sig .tc := ⟨.hbm, 21, rfl⟩
abbrev main_cst_5 : Ref sig .tc := ⟨.hbm, 22, rfl⟩
abbrev main_v8 : Ref sig .tc := ⟨.hbm, 23, rfl⟩
abbrev main_cst_6 : Ref sig .tc := ⟨.hbm, 24, rfl⟩
abbrev main_v9 : Ref sig .tc := ⟨.hbm, 25, rfl⟩
abbrev main_cst_7 : Ref sig .tc := ⟨.hbm, 26, rfl⟩
abbrev main_v10 : Ref sig .tc := ⟨.hbm, 27, rfl⟩
abbrev main_cst_8 : Ref sig .tc := ⟨.hbm, 28, rfl⟩
abbrev main_v11 : Ref sig .tc := ⟨.hbm, 29, rfl⟩
abbrev main_v12 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x8192_S4x8192x1 : S4x8192.ShapeCasts S4x8192x1
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x8192x3_S1x8192x3_0_0_0 : ∀ a, (![0, 0, 0] : Fin 3 → Nat) a + S1x8192x3.size a ≤ S1x8192x3.size a
  h_S1x8192x3 : 0 < S1x8192x3.numel
  shapeCasts_S1x8192x3_S8192x3 : S1x8192x3.ShapeCasts S8192x3
  reduces_S256x3_S256 : S256x3.Reduces [1] S256
  shapeCasts_S256_S256x1 : S256.ShapeCasts S256x1
  broadcasts_S256x1_S256x8192 : S256x1.Broadcasts S256x8192
  broadcasts_S1x8192_S256x8192 : S1x8192.Broadcasts S256x8192
  reduces_S256x8192_S256 : S256x8192.Reduces [1] S256
  reduces_S256x8192_S8192 : S256x8192.Reduces [0] S8192
  shapeCasts_S8192_S1x8192 : S8192.ShapeCasts S1x8192
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  reduces_S1x256x1_S1 : S1x256x1.Reduces [1, 2] S1
  shapeCasts_S1_S1x1x1 : S1.ShapeCasts S1x1x1
  inpos_S1x1x1_p0_0_0 : ∀ a, (![0, 0, 0] : Fin 3 → Nat) a < S1x1x1.size a
  reducesTo_S4x8192x1_S_d0_1_2 : S4x8192x1.ReducesTo [0, 1, 2] S_
  h_S_ : 0 < S_.numel
  reducesTo_S4x1x8192_S_d0_1_2 : S4x1x8192.ReducesTo [0, 1, 2] S_
  reducesTo_S4x1x1_S_d0_1_2 : S4x1x1.ReducesTo [0, 1, 2] S_
  dot_S1x3_S8192x3_S1x8192_1_1_0_0_n_n_wf : DotDims.WF S1x3 S8192x3 S1x8192 [1] [1] [0] [0] [] []
  dot_S256x3_S8192x3_S256x8192_1_1_0_0_n_n_wf : DotDims.WF S256x3 S8192x3 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S4x8192x3.size a
  hwx0_0 : ∀ i : grid0.Coords, EltTy.bits .f32 = 32 ∨ (Rect.block (s := S4x8192x3) S1x256x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192x3.size a ≤ S4x8192x3.size a
  hwx0_1 : ∀ i : grid0.Coords, EltTy.bits .f32 = 32 ∨ (Rect.block (s := S4x8192x3) S1x8192x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S4x8192x1.size a
  hwx0_2 : ∀ i : grid0.Coords, EltTy.bits .f32 = 32 ∨ (Rect.block (s := S4x8192x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S4x8192x1.size a
  hwx0_3 : ∀ i : grid0.Coords, EltTy.bits .f32 = 32 ∨ (Rect.block (s := S4x8192x1) S1x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x8192.size a ≤ S4x1x8192.size a
  hwx0_4 : ∀ i : grid0.Coords, EltTy.bits .f32 = 32 ∨ (Rect.block (s := S4x1x8192) S1x1x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S4x1x1.size a
  hwx0_5 : ∀ i : grid0.Coords, EltTy.bits .f32 = 32 ∨ (Rect.block (s := S4x1x1) S1x1x1.size (cc0_transform_5 i) (hinb0_5 i)).WholeWords (EltTy.packing .f32)

variable [Facts₀]

def dot_S1x3_S8192x3_S1x8192_1_1_0_0_n_n : DotDims S1x3 S8192x3 S1x8192 where
  lhsContracting := [1]
  rhsContracting := [1]
  lhsNonContracting := [0]
  rhsNonContracting := [0]
  lhsBatch := []
  rhsBatch := []
  wf := dot_S1x3_S8192x3_S1x8192_1_1_0_0_n_n_wf
def dot_S256x3_S8192x3_S256x8192_1_1_0_0_n_n : DotDims S256x3 S8192x3 S256x8192 where
  lhsContracting := [1]
  rhsContracting := [1]
  lhsNonContracting := [0]
  rhsNonContracting := [0]
  lhsBatch := []
  rhsBatch := []
  wf := dot_S256x3_S8192x3_S256x8192_1_1_0_0_n_n_wf

abbrev win0_0 : Pipeline.Window sig grid0 :=
  Pipeline.Window.ofSpec (Memref.whole main_arg0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x256x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x1x8192.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S4x8192 : Shape := ⟨2, ![4, 8192]⟩
abbrev S_ : Shape := ⟨0, ![]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 51
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .f32⟩
  | .hbm, ⟨3, _⟩ => ⟨S4x8192x3, .f32⟩
  | .hbm, ⟨4, _⟩ => ⟨S_, .f32⟩
  | .hbm, ⟨5, _⟩ => ⟨S4x8192, .f32⟩
  | .hbm, ⟨6, _⟩ => ⟨S4x8192x3, .f32⟩
  | .hbm, ⟨7, _⟩ => ⟨S_, .f32⟩
  | .hbm, ⟨8, _⟩ => ⟨S4x8192, .f32⟩
  | .hbm, ⟨9, _⟩ => ⟨S4x8192x8192, .f32⟩
  | .hbm, ⟨10, _⟩ => ⟨S4x8192x1, .f32⟩
  | .hbm, ⟨11, _⟩ => ⟨S4x1x8192, .f32⟩
  | .hbm, ⟨12, _⟩ => ⟨S4x8192x8192, .f32⟩
  | .hbm, ⟨13, _⟩ => ⟨S4x8192x8192, .f32⟩
  | .hbm, ⟨14, _⟩ => ⟨S4x8192x8192, .f32⟩
  | .hbm, ⟨15, _⟩ => ⟨S_, .f32⟩
  | .hbm, ⟨16, _⟩ => ⟨S4x8192x8192, .f32⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4x8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4x8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_cst_8 : Ref sig .tc := ⟨.hbm, 32, rfl⟩
abbrev main_v20 : Ref sig .tc := ⟨.hbm, 33, rfl⟩
abbrev main_v21 : Ref sig .tc := ⟨.hbm, 34, rfl⟩
abbrev main_cst_9 : Ref sig .tc := ⟨.hbm, 35, rfl⟩
abbrev main_cst_10 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v22 : Ref sig .tc := ⟨.hbm, 40, rfl⟩
abbrev main_v23 : Ref sig .tc := ⟨.hbm, 41, rfl⟩
abbrev main_cst_11 : Ref sig .tc := ⟨.hbm, 42, rfl⟩
abbrev main_v24 : Ref sig .tc := ⟨.hbm, 43, rfl⟩
abbrev main_cst_12 : Ref sig .tc := ⟨.hbm, 44, rfl⟩
abbrev main_v25 : Ref sig .tc := ⟨.hbm, 45, rfl⟩
abbrev main_cst_13 : Ref sig .tc := ⟨.hbm, 46, rfl⟩
abbrev main_v26 : Ref sig .tc := ⟨.hbm, 47, rfl⟩
abbrev main_cst_14 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S_d0_1 : S4x8192.ReducesTo [0, 1] S_
  reducesTo_S4x8192x8192_S4x8192_d1 : S4x8192x8192.ReducesTo [1] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.RefRead.lean ====
/-
  The reference's host program read back: its run and its operations read at an index.
-/
import proofs.«110999_j3298534884131_1_alg».proof.Proof.Gen.ReferenceIdeal.Run
import proofs.«110999_j3298534884131_1_alg».proof.Proof.Gen.ReferenceIdeal.Read
-- ==== Proof.Spec.lean ====
/-
  The mathematics of the claim, stated once, over plain coordinates, with no program in sight.

  Two point clouds P, T : [4, 8192, 3] and densities D : [4, 8192] over the extended reals.
    sq X b n        = Σ_d X[b,n,d]²                       (a point's squared norm)
    dotp P T b n k  = Σ_d P[b,n,d] · T[b,k,d]             (the cross term)
    d2 P T b n k    = max ((sq P b n + sq T b k) - 2 · dotp P T b n k) 0     (clamped squared distance)
    nnx P T b n     = min over k of d2 P T b n k, from +∞  (nearest target to a prediction)
    nny P T b k     = min over n of d2 P T b n k, from +∞  (nearest prediction to a target)
    absRow D b      = Σ_n |D[b,n]|
  and the three scalars the loss is built from,
    SX = 0 + Σ_b Σ_n nnx,   SY = 0 + Σ_b Σ_k nny,   SD = 0 + Σ_b absRow D b,
  which `loss` combines: 1 · clip(SX/32768 + SY/32768, 0, 1e6) + 0.1 · (SD/32768), every literal kept as its word.
  The literals are never evaluated except the zero word (the neutral element of the sums) and +∞ (the top of the order).
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Chamfer

/-- The shape of a point cloud, of the densities, and of a scalar. -/
abbrev Pts : Shape := ⟨3, ![4, 8192, 3]⟩
abbrev Dens : Shape := ⟨2, ![4, 8192]⟩
abbrev Sc : Shape := ⟨0, ![]⟩

/-- The words of `0.0`, `2.0` and `+∞` at the ideal values. -/
abbrev c0 : EReal := Ideal.ofBits .f32 0x00000000#32
abbrev c2 : EReal := Ideal.ofBits .f32 0x40000000#32
abbrev cInf : EReal := Ideal.ofBits .f32 0x7F800000#32

theorem c0_eq : c0 = 0 := Ideal.ofBits_zero_f32
theorem cInf_eq : cInf = ⊤ := by simp [cInf, Ideal.ofBits, Ideal.ieee]

/-- A point's squared norm. -/
def sq (X : Pts.Idx → EReal) (b : Fin 4) (n : Fin 8192) : EReal := ∑ d : Fin 3, X (ix3 b n d) * X (ix3 b n d)
/-- The inner product of prediction `n` and target `k` of batch `b`. -/
def dotp (P T : Pts.Idx → EReal) (b : Fin 4) (n k : Fin 8192) : EReal := ∑ d : Fin 3, P (ix3 b n d) * T (ix3 b k d)
/-- The clamped squared distance `max (‖p‖² + ‖t‖² - 2 p·t) 0`. -/
def d2 (P T : Pts.Idx → EReal) (b : Fin 4) (n k : Fin 8192) : EReal := max (sq P b n + sq T b k - c2 * dotp P T b n k) c0
/-- Nearest target to prediction `n`: the minimum over the targets, from `+∞`. -/
def nnx (P T : Pts.Idx → EReal) (b : Fin 4) (n : Fin 8192) : EReal :=
  (Finset.univ : Finset (Fin 8192)).fold min cInf (fun k => d2 P T b n k)
/-- Nearest prediction to target `k`: the minimum over the predictions, from `+∞`. -/
def nny (P T : Pts.Idx → EReal) (b : Fin 4) (k : Fin 8192) : EReal :=
  (Finset.univ : Finset (Fin 8192)).fold min cInf (fun n => d2 P T b n k)
/-- A batch row's sum of absolute densities (`|x| = max x (-x)`). -/
def absRow (D : Dens.Idx → EReal) (b : Fin 4) : EReal := ∑ n : Fin 8192, max (D (ix2 b n)) (-(D (ix2 b n)))

def SX (P T : Pts.Idx → EReal) : EReal := c0 + ∑ b : Fin 4, ∑ n : Fin 8192, nnx P T b n
def SY (P T : Pts.Idx → EReal) : EReal := c0 + ∑ b : Fin 4, ∑ k : Fin 8192, nny P T b k
def SD (D : Dens.Idx → EReal) : EReal := c0 + ∑ b : Fin 4, absRow D b

/-- The scalar tail both programs end with, at any float instance: the two means added and clipped to `[0, 1e6]`,
    times `1.0`, plus `0.1` times the density mean. Never opened: both sides end in it. -/
def loss {F : FTy → Type} [FloatOps F] (sx sy sd : FVec F Sc .f32) : FVec F Sc .f32 :=
  addf (mulf (constant Sc .f32 0x3F800000#32)
      (minimumf (id (constant Sc .f32 0x49742400#32))
        (maximumf (id (constant Sc .f32 0x00000000#32))
          (addf (Host.divf sx (constant Sc .f32 0x47000000#32)) (Host.divf sy (constant Sc .f32 0x47000000#32))))))
    (mulf (constant Sc .f32 0x3DCCCCCD#32) (Host.divf sd (constant Sc .f32 0x47000000#32)))

/-- The result both programs compute, of the three argument arrays. -/
def result (P T : Pts.Idx → EReal) (D : Dens.Idx → EReal) : FVec Ideal Sc .f32 :=
  loss (F := Ideal) (fun _ => SX P T) (fun _ => SY P T) (fun _ => SD D)

/-! ## Sums over an index set, by coordinates -/

/-- A rank-3 index set is the product of its coordinate ranges, so a sum over it is the triple sum. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2), invFun := fun p => ix3 p.1 p.2.1 p.2.2,
      left_inv := fun i => (eq_ix3 i).symm, right_inv := fun _ => rfl }
  rw [← Equiv.sum_comp e.symm f, Fintype.sum_prod_type]
  refine Finset.sum_congr rfl fun a _ => ?_
  rw [Fintype.sum_prod_type]
  rfl

end Chamfer

end
-- ==== Proof.RefValue.lean ====
/-
  The reference's host program, read at the ideal values, computes `Chamfer.result`.

  Bottom up:
    * the clamped squared distance: the stage that ends the distance matrix, read at (b, n, k), is
      max ((Σ_d P[b,n,d]² + Σ_d T[b,k,d]²) - 2 · Σ_d P[b,n,d] · T[b,k,d]) 0, which is `Chamfer.d2 P T b n k`;
      each row sum carries a leading zero word, which is the neutral element of the sum;
    * the two minimum-reduces: over the last axis at (b, n) the fold of `min` from +∞ over k (`nnx`), over the
      middle axis at (b, k) the fold of `min` from +∞ over n (`nny`);
    * the three total sums: a sum over a rank-2 index set is the double sum over its coordinates, so the three
      scalars are `SX`, `SY`, `SD`;
    * the scalar tail is `Chamfer.loss` of the three scalars, term for term.
-/
import proofs.«110999_j3298534884131_1_alg».proof.Proof.Spec
import proofs.«110999_j3298534884131_1_alg».proof.Proof.Gen.ReferenceIdeal.Read
import Idealize.ShloMosaic.PureOps.Reduce

noncomputable section

open Idealize.ShloMosaic Idealize.ShloMosaic.ValueIdx
open Cert.ReferenceIdeal Cert.ReferenceIdeal.Gen Cert.ReferenceIdeal.Read
open scoped BigOperators

namespace Cert.ReferenceIdeal.RefValue

/-- The distance matrix at (b, n, k). The two broadcasts of the squared norms read row (b, n) of `P` and row (b, k)
    of `T`; the contraction reads `P` at (b, n, d) and `T` at (b, k, d); the two constant broadcasts read the words
    of 2 and 0. The zero word in front of each squared norm is 0, and 0 + x = x. -/
theorem v14_at (P T : (⟨S4x8192x3, .f32⟩ : BufTy).Contents (Elt Ideal)) (b : Fin 4) (n k : Fin 8192) :
    val_main_v14 (F := Ideal) P T (ix3 b n k) = Chamfer.d2 P T b n k := by
  rw [val_main_v14_apply, val_main_v13_apply, val_main_v12_apply, val_main_v11_apply, val_main_v10_apply,
    val_main_v9_apply, val_main_v8_apply, val_main_v7_apply, val_main_v6_apply, val_main_v5_apply,
    val_main_v4_apply, val_main_v3_apply, val_main_v1_apply]
  -- the index each operand is read at, by coordinates
  have e1 : ∀ d, idx_main_v1 (idx_main_v5 (idx_main_v7 (ix3 b n k))) d = ix3 b n d := fun d =>
    funext fun a => by match a with | ⟨0, _⟩ => rfl | ⟨1, _⟩ => rfl | ⟨2, _⟩ => rfl
  have e2 : ∀ d, idx_main_v3 (idx_main_v6 (idx_main_v8 (ix3 b n k))) d = ix3 b k d := fun d =>
    funext fun a => by match a with | ⟨0, _⟩ => rfl | ⟨1, _⟩ => rfl | ⟨2, _⟩ => rfl
  have e3 : ∀ d, lidx_main_v4 (ix3 b n k) d = ix3 b n d := fun d =>
    funext fun a => by match a with | ⟨0, _⟩ => rfl | ⟨1, _⟩ => rfl | ⟨2, _⟩ => rfl
  have e4 : ∀ d, ridx_main_v4 (ix3 b n k) d = ix3 b k d := fun d =>
    funext fun a => by match a with | ⟨0, _⟩ => rfl | ⟨1, _⟩ => rfl | ⟨2, _⟩ => rfl
  simp only [e1, e2, e3, e4, val_main_v0_apply, val_main_v2_apply]
  -- the initial value of each row sum is the zero word
  have z1 : val_main_cst (F := Ideal) (Shape.Idx.first h_S_) = 0 := Chamfer.c0_eq
  have z2 : val_main_cst_0 (F := Ideal) (Shape.Idx.first h_S_) = 0 := Chamfer.c0_eq
  rw [z1, z2, zero_add, zero_add]
  rfl

/-- The minimum over the last axis at (b, n): `min` is commutative and associative, so the reduce is the fold from the
    initial value (the word of +∞) over k of the matrix at (b, n, k). -/
theorem v15_at (P T : (⟨S4x8192x3, .f32⟩ : BufTy).Contents (Elt Ideal)) (b : Fin 4) (n : Fin 8192) :
    val_main_v15 (F := Ideal) P T (ix2 b n) = Chamfer.nnx P T b n := by
  have h : S4x8192x8192.Reduces [2] S4x8192 := by decide
  unfold val_main_v15
  refine (Host.reduce_eq_fold_single (FloatOps.minimumf (F := Ideal) (φ := .f32)) _ _
    reducesTo_S4x8192x8192_S4x8192_d2 h h_S_ (ix2 b n)).trans ?_
  refine Finset.fold_congr fun k _ => ?_
  -- (b, n) with k inserted on the last axis is (b, n, k)
  have e : h.lift (ix2 b n) k = ix3 b n k := funext fun a => Fin.ext (by
    match a with | ⟨0, _⟩ => rfl | ⟨1, _⟩ => rfl | ⟨2, _⟩ => rfl)
  show val_main_v14 (F := Ideal) P T (h.lift (ix2 b n) k) = _
  rw [e]
  exact v14_at P T b n k

/-- The minimum over the middle axis at (b, k): the fold from +∞ over n of the matrix at (b, n, k). -/
theorem v18_at (P T : (⟨S4x8192x3, .f32⟩ : BufTy).Contents (Elt Ideal)) (b : Fin 4) (k : Fin 8192) :
    val_main_v18 (F := Ideal) P T (ix2 b k) = Chamfer.nny P T b k := by
  have h : S4x8192x8192.Reduces [1] S4x8192 := by decide
  unfold val_main_v18
  refine (Host.reduce_eq_fold_single (FloatOps.minimumf (F := Ideal) (φ := .f32)) _ _
    reducesTo_S4x8192x8192_S4x8192_d1 h h_S_ (ix2 b k)).trans ?_
  refine Finset.fold_congr fun n _ => ?_
  -- (b, k) with n inserted on the middle axis is (b, n, k)
  have e : h.lift (ix2 b k) n = ix3 b n k := funext fun a => Fin.ext (by
    match a with | ⟨0, _⟩ => rfl | ⟨1, _⟩ => rfl | ⟨2, _⟩ => rfl)
  show val_main_v14 (F := Ideal) P T (h.lift (ix2 b k) n) = _
  rw [e]
  exact v14_at P T b n k

/-- The total of the row minima: the zero word plus the double sum over (b, n). -/
theorem v16_eq (P T : (⟨S4x8192x3, .f32⟩ : BufTy).Contents (Elt Ideal)) :
    val_main_v16 (F := Ideal) P T = fun _ => Chamfer.SX P T := by
  funext i
  rw [val_main_v16_apply, sum_idx2]
  simp only [v15_at]
  rfl

/-- The total of the column minima: the zero word plus the double sum over (b, k). -/
theorem v19_eq (P T : (⟨S4x8192x3, .f32⟩ : BufTy).Contents (Elt Ideal)) :
    val_main_v19 (F := Ideal) P T = fun _ => Chamfer.SY P T := by
  funext i
  rw [val_main_v19_apply, sum_idx2]
  simp only [v18_at]
  rfl

/-- The total of the absolute densities: |x| is max x (-x), and the sum over (b, n) is the sum over b of the row sums. -/
theorem v24_eq (D : (⟨S4x8192, .f32⟩ : BufTy).Contents (Elt Ideal)) :
    val_main_v24 (F := Ideal) D = fun _ => Chamfer.SD D := by
  funext i
  rw [val_main_v24_apply, sum_idx2]
  rfl

/-- The reference's result: its scalar tail is `Chamfer.loss` of the three totals, which are `SX`, `SY`, `SD`. -/
theorem result_eq (P T : (⟨Cert.ReferenceIdeal.S4x8192x3, .f32⟩ : BufTy).Contents (Elt Ideal))
    (D : (⟨Cert.ReferenceIdeal.S4x8192, .f32⟩ : BufTy).Contents (Elt Ideal)) :
    Cert.ReferenceIdeal.Read.val_main_v28 (F := Ideal) P T D = Chamfer.result P T D := by
  show Chamfer.loss (F := Ideal) (val_main_v16 (F := Ideal) P T) (val_main_v19 (F := Ideal) P T)
    (val_main_v24 (F := Ideal) D) = _
  rw [v16_eq, v19_eq, v24_eq]
  rfl

end Cert.ReferenceIdeal.RefValue

end
-- ==== Proof.TileFold.lean ====
/-
  Sums and minima over the 8192 points, taken tile by tile: the points are cut into 32 tiles of 256,
  tile j holding the points 256 j + r for r < 256.  The points before tile j+1 are the points before
  tile j together with tile j itself, the two sets disjoint, so a sum over them splits as a sum of the
  two parts and a running minimum (from +∞) as the minimum of the two parts.  Before tile 0 there is
  no point; before tile 32 there is every point.
-/
import proofs.«110999_j3298534884131_1_alg».proof.Proof.Spec

noncomputable section

open scoped BigOperators

namespace Chamfer

/-- The points that lie before tile `j`: those of index below `256 j`. -/
def firstTiles (j : ℕ) : Finset (Fin 8192) := Finset.univ.filter fun n => n.val < 256 * j

/-- Point `r` of tile `j`: index `256 j + r`. -/
def tilePt (j : ℕ) (hj : j < 32) (r : Fin 256) : Fin 8192 :=
  ⟨256 * j + r.val, by have := r.isLt; omega⟩

/-- Two points of one tile with the same index have the same offset. -/
theorem tilePt_injective (j : ℕ) (hj : j < 32) : Function.Injective (tilePt j hj) := by
  intro a b h
  have h' := congrArg Fin.val h
  simp only [tilePt] at h'
  exact Fin.ext (by omega)

/-- Tile `j` as a set of points: the image of the 256 offsets. -/
def tile (j : ℕ) (hj : j < 32) : Finset (Fin 8192) :=
  Finset.univ.map ⟨tilePt j hj, tilePt_injective j hj⟩

/-- The points before tile `j+1` are those before tile `j` and those of tile `j`: an index below
    `256 (j+1)` is below `256 j`, or is `256 j + r` with `r = n - 256 j < 256`. -/
theorem firstTiles_succ (j : ℕ) (hj : j < 32) : firstTiles (j + 1) = firstTiles j ∪ tile j hj := by
  ext n
  simp only [firstTiles, tile, Finset.mem_filter, Finset.mem_univ, true_and, Finset.mem_union,
    Finset.mem_map, Function.Embedding.coeFn_mk]
  constructor
  · intro h
    by_cases h' : n.val < 256 * j
    · exact Or.inl h'
    · refine Or.inr ⟨⟨n.val - 256 * j, by omega⟩, ?_⟩
      apply Fin.ext
      simp only [tilePt]
      omega
  · rintro (h | ⟨r, rfl⟩)
    · omega
    · have := r.isLt
      simp only [tilePt]
      omega

/-- No point of tile `j` lies before tile `j`. -/
theorem firstTiles_disjoint_tile (j : ℕ) (hj : j < 32) : Disjoint (firstTiles j) (tile j hj) := by
  rw [Finset.disjoint_left]
  intro n hn hm
  simp only [firstTiles, Finset.mem_filter, Finset.mem_univ, true_and] at hn
  simp only [tile, Finset.mem_map, Finset.mem_univ, true_and, Function.Embedding.coeFn_mk] at hm
  obtain ⟨r, rfl⟩ := hm
  simp only [tilePt] at hn
  omega

/-- No index is below `0`. -/
theorem firstTiles_zero : firstTiles 0 = ∅ := by
  ext n
  simp [firstTiles]

/-- Every index is below `8192 = 256 · 32`. -/
theorem firstTiles_all : firstTiles 32 = Finset.univ := by
  ext n
  have := n.isLt
  simp only [firstTiles, Finset.mem_filter, Finset.mem_univ, true_and, iff_true]
  omega

/-! ## Sums -/

theorem sum_firstTiles_zero (f : Fin 8192 → EReal) : ∑ n ∈ firstTiles 0, f n = 0 := by
  rw [firstTiles_zero, Finset.sum_empty]

theorem sum_firstTiles_succ (f : Fin 8192 → EReal) (j : ℕ) (hj : j < 32) :
    ∑ n ∈ firstTiles (j + 1), f n = ∑ n ∈ firstTiles j, f n + ∑ r : Fin 256, f (tilePt j hj r) := by
  rw [firstTiles_succ j hj, Finset.sum_union (firstTiles_disjoint_tile j hj), tile, Finset.sum_map]
  rfl

theorem sum_firstTiles_all (f : Fin 8192 → EReal) : ∑ n ∈ firstTiles 32, f n = ∑ n, f n := by
  rw [firstTiles_all]

/-! ## Minima, from +∞ -/

/-- `+∞` is the neutral element of the minimum. -/
theorem min_cInf_fold {ι : Type*} (s : Finset ι) (g : ι → EReal) :
    min cInf (s.fold min cInf g) = s.fold min cInf g := by
  rw [cInf_eq]
  exact min_top_left _

theorem min_firstTiles_zero (f : Fin 8192 → EReal) : (firstTiles 0).fold min cInf f = cInf := by
  rw [firstTiles_zero, Finset.fold_empty]

theorem min_firstTiles_succ (f : Fin 8192 → EReal) (j : ℕ) (hj : j < 32) :
    (firstTiles (j + 1)).fold min cInf f
      = min ((firstTiles j).fold min cInf f)
          ((Finset.univ : Finset (Fin 256)).fold min cInf fun r => f (tilePt j hj r)) := by
  have h := Finset.fold_union_inter (op := min) (f := f) (s₁ := firstTiles j) (s₂ := tile j hj)
    (b₁ := cInf) (b₂ := cInf)
  rw [Finset.disjoint_iff_inter_eq_empty.mp (firstTiles_disjoint_tile j hj), Finset.fold_empty] at h
  rw [firstTiles_succ j hj]
  have e : (tile j hj).fold min cInf f
      = (Finset.univ : Finset (Fin 256)).fold min cInf fun r => f (tilePt j hj r) := by
    rw [tile, Finset.fold_map]
    rfl
  rw [← e, ← h, cInf_eq]
  exact (min_top_right _).symm

theorem min_firstTiles_all (f : Fin 8192 → EReal) :
    (firstTiles 32).fold min cInf f = (Finset.univ : Finset (Fin 8192)).fold min cInf f := by
  rw [firstTiles_all]

end Chamfer

end
-- ==== Proof.Pieces.lean ====
/-
  The pieces the kernel body's stores leave, read back as values, at any float instance.

  The body runs once per control case. In case A (the conditional on the second grid coordinate being zero is taken)
  it stores the row minima into output 3, resets output 4 to the +∞ block and output 5 to the zero block, reads both
  back, and stores the updates; in case B it stores the row minima and updates outputs 4 and 5 from their running
  contents. Every store and load goes through the whole-shape rectangle at zero offsets, so a load of an unread whole
  buffer reads its contents, a load after one covering store reads that store's payload, and the last covering store
  leaves its payload whatever was stored before it.

    out_A_3, out_B_3 : output 3 holds the row minima of the clamped distance block, a function of the two point blocks;
    out_A_4 : output 4 holds the column minima joined (by the pointwise minimum) with the +∞ block just stored;
    out_B_4 : output 4 holds the column minima joined with the running contents;
    out_A_5 : output 5 holds the density block's absolute sum added to the zero block just stored;
    out_B_5 : output 5 holds the density block's absolute sum added to the running contents.
-/
import proofs.«110999_j3298534884131_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a rank-3 access, as the constant function. -/
theorem hz : (![0, 0, 0] : Fin 3 → Nat) = fun _ => 0 := funext fun a => by fin_cases a <;> rfl

/-! ## Case A: the conditional taken -/

set_option maxHeartbeats 1000000 in
/-- Output 3 after case A: its one covering store's payload, whose two loads read the whole point blocks. -/
theorem out_A_3 (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S1x1x8192 .f32) (harg6 : arg6.IsWhole) (arg7 : Memref sig .tc .vmem S1x1x1 .f32) (harg7 : arg7.IsWhole) (hc0 : cond0_0 i)
    (x0 : Vec F S1x256x3 .f32) (x1 : Vec F S1x8192x3 .f32) (x2 : Vec F S1x256x1 .f32) :
    out0_A_3 c i arg2 harg2 arg3 harg3 arg4 harg4 arg5 harg5 arg6 harg6 arg7 harg7 hc0 x0 x1 x2 = k0_pay4 x0 x1 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero (S := S1x256x1) hz]
  simp only [View.readAt_eq_ld, harg2.read_unread, harg3.read_unread, harg4.read_unread, harg6.read_unread, harg7.read_unread, View.ld_unit_zero (S := S1x256x3) hz, View.ld_unit_zero (S := S1x8192x3) hz, View.ld_unit_zero (S := S1x256x1) hz, View.ld_unit_zero (S := S1x1x8192) hz, View.ld_unit_zero (S := S1x1x1) hz]

set_option maxHeartbeats 1000000 in
/-- Output 4 after case A: two covering stores, the later of which stays; its payload's load of the buffer reads the
    +∞ block the earlier store left. -/
theorem out_A_4 (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S1x1x8192 .f32) (harg6 : arg6.IsWhole) (arg7 : Memref sig .tc .vmem S1x1x1 .f32) (harg7 : arg7.IsWhole) (hc0 : cond0_0 i)
    (x0 : Vec F S1x256x3 .f32) (x1 : Vec F S1x8192x3 .f32) (x2 : Vec F S1x256x1 .f32) :
    out0_A_4 c i arg2 harg2 arg3 harg3 arg4 harg4 arg5 harg5 arg6 harg6 arg7 harg7 hc0 x0 x1 x2 = k0_pay1 (k0_pay7 x0 x1 (k0_pay5 (F := F))) := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_cons_unit_zero (S := S1x1x8192) hz, View.readCov_unit_zero (S := S1x1x8192) _ hz]
  simp only [View.readAt_eq_ld, harg2.read_unread, harg3.read_unread, harg4.read_unread, harg6.read_unread, harg7.read_unread, View.ld_unit_zero (S := S1x256x3) hz, View.ld_unit_zero (S := S1x8192x3) hz, View.ld_unit_zero (S := S1x256x1) hz, View.ld_unit_zero (S := S1x1x8192) hz, View.ld_unit_zero (S := S1x1x1) hz]

set_option maxHeartbeats 1000000 in
/-- Output 5 after case A: two covering stores, the later of which stays; its payload's load of the buffer reads the
    zero block the earlier store left, its other load the whole density block. -/
theorem out_A_5 (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S1x1x8192 .f32) (harg6 : arg6.IsWhole) (arg7 : Memref sig .tc .vmem S1x1x1 .f32) (harg7 : arg7.IsWhole) (hc0 : cond0_0 i)
    (x0 : Vec F S1x256x3 .f32) (x1 : Vec F S1x8192x3 .f32) (x2 : Vec F S1x256x1 .f32) :
    out0_A_5 c i arg2 harg2 arg3 harg3 arg4 harg4 arg5 harg5 arg6 harg6 arg7 harg7 hc0 x0 x1 x2 = k0_pay2 x2 (k0_pay6 (F := F)) := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  sl_unfold_words
  rw [View.canon_cons_unit_zero (S := S1x1x1) hz, View.readCov_unit_zero (S := S1x1x1) _ hz]
  simp only [View.readAt_eq_ld, harg2.read_unread, harg3.read_unread, harg4.read_unread, harg6.read_unread, harg7.read_unread, View.ld_unit_zero (S := S1x256x3) hz, View.ld_unit_zero (S := S1x8192x3) hz, View.ld_unit_zero (S := S1x256x1) hz, View.ld_unit_zero (S := S1x1x8192) hz, View.ld_unit_zero (S := S1x1x1) hz]

/-! ## Case B: the conditional not taken -/

set_option maxHeartbeats 1000000 in
/-- Output 3 after case B: its one covering store's payload, whose two loads read the whole point blocks. -/
theorem out_B_3 (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S1x1x8192 .f32) (harg6 : arg6.IsWhole) (arg7 : Memref sig .tc .vmem S1x1x1 .f32) (harg7 : arg7.IsWhole) (hc0 : ¬cond0_0 i)
    (x0 : Vec F S1x256x3 .f32) (x1 : Vec F S1x8192x3 .f32) (x2 : Vec F S1x256x1 .f32) (xo4 : Vec F S1x1x8192 .f32) (xo5 : Vec F S1x1x1 .f32) :
    out0_B_3 c i arg2 harg2 arg3 harg3 arg4 harg4 arg5 harg5 arg6 harg6 arg7 harg7 hc0 x0 x1 x2 xo4 xo5 = k0_pay4 x0 x1 := by
  unfold out0_B_3
  rw [View.read_writes_eq_canon _ _ _ (cover0_B_3 c i arg2 harg2 arg3 harg3 arg4 harg4 arg5 harg5 arg6 harg6 arg7 harg7 hc0 x0 x1 x2 xo4 xo5)]
  unfold kernelRun0_B
  dsimp only
  sl_unfold_words
  rw [View.canon_unit_zero (S := S1x256x1) hz]
  simp only [View.readAt_eq_ld, harg2.read_unread, harg3.read_unread, harg4.read_unread, harg6.read_unread, harg7.read_unread, View.ld_unit_zero (S := S1x256x3) hz, View.ld_unit_zero (S := S1x8192x3) hz, View.ld_unit_zero (S := S1x256x1) hz, View.ld_unit_zero (S := S1x1x8192) hz, View.ld_unit_zero (S := S1x1x1) hz]

set_option maxHeartbeats 1000000 in
/-- Output 4 after case B: one covering store, whose payload's load of the buffer reads the running contents. -/
theorem out_B_4 (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S1x1x8192 .f32) (harg6 : arg6.IsWhole) (arg7 : Memref sig .tc .vmem S1x1x1 .f32) (harg7 : arg7.IsWhole) (hc0 : ¬cond0_0 i)
    (x0 : Vec F S1x256x3 .f32) (x1 : Vec F S1x8192x3 .f32) (x2 : Vec F S1x256x1 .f32) (xo4 : Vec F S1x1x8192 .f32) (xo5 : Vec F S1x1x1 .f32) :
    out0_B_4 c i arg2 harg2 arg3 harg3 arg4 harg4 arg5 harg5 arg6 harg6 arg7 harg7 hc0 x0 x1 x2 xo4 xo5 = k0_pay1 (k0_pay7 x0 x1 xo4) := by
  unfold out0_B_4
  rw [View.read_writes_eq_canon _ _ _ (cover0_B_4 c i arg2 harg2 arg3 harg3 arg4 harg4 arg5 harg5 arg6 harg6 arg7 harg7 hc0 x0 x1 x2 xo4 xo5)]
  unfold kernelRun0_B
  dsimp only
  sl_unfold_words
  rw [View.canon_unit_zero (S := S1x1x8192) hz]
  simp only [View.readAt_eq_ld, harg2.read_unread, harg3.read_unread, harg4.read_unread, harg6.read_unread, harg7.read_unread, View.ld_unit_zero (S := S1x256x3) hz, View.ld_unit_zero (S := S1x8192x3) hz, View.ld_unit_zero (S := S1x256x1) hz, View.ld_unit_zero (S := S1x1x8192) hz, View.ld_unit_zero (S := S1x1x1) hz]

set_option maxHeartbeats 1000000 in
/-- Output 5 after case B: one covering store, whose payload's loads read the whole density block and the running
    contents. -/
theorem out_B_5 (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x256x1 .f32) (harg4 : arg4.IsWhole) (arg5 : Memref sig .tc .vmem S1x256x1 .f32) (harg5 : arg5.IsWhole) (arg6 : Memref sig .tc .vmem S1x1x8192 .f32) (harg6 : arg6.IsWhole) (arg7 : Memref sig .tc .vmem S1x1x1 .f32) (harg7 : arg7.IsWhole) (hc0 : ¬cond0_0 i)
    (x0 : Vec F S1x256x3 .f32) (x1 : Vec F S1x8192x3 .f32) (x2 : Vec F S1x256x1 .f32) (xo4 : Vec F S1x1x8192 .f32) (xo5 : Vec F S1x1x1 .f32) :
    out0_B_5 c i arg2 harg2 arg3 harg3 arg4 harg4 arg5 harg5 arg6 harg6 arg7 harg7 hc0 x0 x1 x2 xo4 xo5 = k0_pay2 x2 xo5 := by
  unfold out0_B_5
  rw [View.read_writes_eq_canon _ _ _ (cover0_B_5 c i arg2 harg2 arg3 harg3 arg4 harg4 arg5 harg5 arg6 harg6 arg7 harg7 hc0 x0 x1 x2 xo4 xo5)]
  unfold kernelRun0_B
  dsimp only
  sl_unfold_words
  rw [View.canon_unit_zero (S := S1x1x1) hz]
  simp only [View.readAt_eq_ld, harg2.read_unread, harg3.read_unread, harg4.read_unread, harg6.read_unread, harg7.read_unread, View.ld_unit_zero (S := S1x256x3) hz, View.ld_unit_zero (S := S1x8192x3) hz, View.ld_unit_zero (S := S1x256x1) hz, View.ld_unit_zero (S := S1x1x8192) hz, View.ld_unit_zero (S := S1x1x1) hz]

end Cert.KernelIdeal.Pieces

end
-- ==== Proof.PayDist.lean ====
/-
  The kernel's distance tile read at an index, over the extended reals.

  The tile is built from a [1,256,3] block x0 of predictions and a [1,8192,3] block x1 of targets:
    x2[r]    = Σ_d x0[0,r,d]²                 (a sum over the coordinate axis of the squared block)
    y2[0,k]  = Σ_d 1 · x1[0,k,d]²             (a row of ones contracted with the squared block)
    xy[r,k]  = Σ_d x0[0,r,d] · x1[0,k,d]      (the two blocks contracted over the coordinate axis)
    tile[r,k] = max ((x2[r] + y2[0,k]) - 2 · xy[r,k]) 0
  Each layout operation (a leading unit axis dropped, a trailing unit axis added, a column or a row
  copied across the tile) reads one operand index; each contraction is re-indexed by its one coordinate.
-/
import proofs.«110999_j3298534884131_1_alg».proof.Proof.Spec
import proofs.«110999_j3298534884131_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.PayDist

open Cert.KernelIdeal Cert.KernelIdeal.Gen Idealize.ShloMosaic Idealize.ShloMosaic.ValueIdx
open scoped BigOperators

/-! ## Layout operations at explicit coordinates -/

/-- A vector [a] cast to a column [a, 1] reads, at (i, u), the vector at i: both positions are i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] copied across b lanes reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The sum over the coordinate axis -/

/-- The add-reduction of a [256, 3] array over axis 1, at r: the sum of row r's three entries. -/
theorem rowSum_apply (y : FVec Ideal S256x3 .f32) (r : Fin 256) :
    multiReduction (F := Ideal) .add [1] S256 y 0x00000000#32 reduces_S256x3_S256 (.inl rfl) rfl (ix1 r)
      = ∑ d : Fin 3, y (ix2 r d) := by
  refine (Ideal.multiReduction_add_single y _ reduces_S256x3_S256 (.inl rfl) rfl (ix1 r)).trans ?_
  refine Finset.sum_congr rfl fun d _ => congrArg y (funext fun a => ?_)
  match a with
  | ⟨0, _⟩ => rfl
  | ⟨1, _⟩ => rfl

/-! ## The two contractions over the coordinate axis

Both contract axis 1 of the left operand with axis 1 of the right; the left operand's axis 0 is the result's axis 0, the
right operand's axis 0 the result's axis 1. -/

/-- The row of ones against [8192, 3]: the left index keeps the result's axis-0 coordinate. -/
theorem lhs_ones_0 (i : S1x8192.Idx) (q : dot_S1x3_S8192x3_S1x8192_1_1_0_0_n_n.contr.Idx) :
    (dot_S1x3_S8192x3_S1x8192_1_1_0_0_n_n.lhsIdx i q 0).val = (i 0).val := by
  unfold DotDims.lhsIdx
  rw [dif_neg (show ¬(0 : Fin S1x3.rank) ∈ dot_S1x3_S8192x3_S1x8192_1_1_0_0_n_n.lhsBatch by decide), dif_pos (show (0 : Fin S1x3.rank) ∈ dot_S1x3_S8192x3_S1x8192_1_1_0_0_n_n.lhsNonContracting by decide)]
  rfl
/-- Its axis 1 is the contraction's coordinate. -/
theorem lhs_ones_1 (i : S1x8192.Idx) (q : dot_S1x3_S8192x3_S1x8192_1_1_0_0_n_n.contr.Idx) :
    (dot_S1x3_S8192x3_S1x8192_1_1_0_0_n_n.lhsIdx i q 1).val = (q ⟨0, by decide⟩).val :=
  dot_S1x3_S8192x3_S1x8192_1_1_0_0_n_n.lhsIdx_val_of_single rfl i q
/-- The right index takes the result's axis-1 coordinate on its axis 0. -/
theorem rhs_ones_0 (i : S1x8192.Idx) (q : dot_S1x3_S8192x3_S1x8192_1_1_0_0_n_n.contr.Idx) :
    (dot_S1x3_S8192x3_S1x8192_1_1_0_0_n_n.rhsIdx i q 0).val = (i 1).val := by
  unfold DotDims.rhsIdx
  rw [dif_neg (show ¬(0 : Fin S8192x3.rank) ∈ dot_S1x3_S8192x3_S1x8192_1_1_0_0_n_n.rhsBatch by decide), dif_pos (show (0 : Fin S8192x3.rank) ∈ dot_S1x3_S8192x3_S1x8192_1_1_0_0_n_n.rhsNonContracting by decide)]
  rfl
/-- Its axis 1 is the contraction's coordinate. -/
theorem rhs_ones_1 (i : S1x8192.Idx) (q : dot_S1x3_S8192x3_S1x8192_1_1_0_0_n_n.contr.Idx) :
    (dot_S1x3_S8192x3_S1x8192_1_1_0_0_n_n.rhsIdx i q 1).val = (q ⟨0, by decide⟩).val :=
  dot_S1x3_S8192x3_S1x8192_1_1_0_0_n_n.rhsIdx_val_of_single rfl i q

/-- The product of a [1, 3] row with a [8192, 3] array into the zero tile, at (u, k): Σ_d row[u,d] · y[k,d]. -/
theorem ones_dot_apply (w : FVec Ideal S1x3 .f32) (y : FVec Ideal S8192x3 .f32) (u : Fin 1) (k : Fin 8192) :
    matmul (F := Ideal) dot_S1x3_S8192x3_S1x8192_1_1_0_0_n_n (some .fp32) w y (constant S1x8192 .f32 0x00000000#32) (ix2 u k)
      = ∑ d : Fin 3, w (ix2 u d) * y (ix2 k d) := by
  simp only [matmul]
  rw [Ideal.matmul_constant_zero_apply, ← Equiv.sum_comp (contrEquiv1 dot_S1x3_S8192x3_S1x8192_1_1_0_0_n_n 3 rfl rfl).symm]
  refine Finset.sum_congr rfl fun d _ => ?_
  have hd := contrEquiv1_symm_val dot_S1x3_S8192x3_S1x8192_1_1_0_0_n_n 3 rfl rfl d
  have el : dot_S1x3_S8192x3_S1x8192_1_1_0_0_n_n.lhsIdx (ix2 u k) ((contrEquiv1 dot_S1x3_S8192x3_S1x8192_1_1_0_0_n_n 3 rfl rfl).symm d) = ix2 u d := funext fun a => Fin.ext (by
    match a with
    | ⟨0, _⟩ => exact lhs_ones_0 _ _
    | ⟨1, _⟩ => exact (lhs_ones_1 _ _).trans hd)
  have er : dot_S1x3_S8192x3_S1x8192_1_1_0_0_n_n.rhsIdx (ix2 u k) ((contrEquiv1 dot_S1x3_S8192x3_S1x8192_1_1_0_0_n_n 3 rfl rfl).symm d) = ix2 k d := funext fun a => Fin.ext (by
    match a with
    | ⟨0, _⟩ => exact rhs_ones_0 _ _
    | ⟨1, _⟩ => exact (rhs_ones_1 _ _).trans hd)
  rw [el, er]

/-- [256, 3] against [8192, 3]: the left index keeps the result's axis-0 coordinate. -/
theorem lhs_cross_0 (i : S256x8192.Idx) (q : dot_S256x3_S8192x3_S256x8192_1_1_0_0_n_n.contr.Idx) :
    (dot_S256x3_S8192x3_S256x8192_1_1_0_0_n_n.lhsIdx i q 0).val = (i 0).val := by
  unfold DotDims.lhsIdx
  rw [dif_neg (show ¬(0 : Fin S256x3.rank) ∈ dot_S256x3_S8192x3_S256x8192_1_1_0_0_n_n.lhsBatch by decide), dif_pos (show (0 : Fin S256x3.rank) ∈ dot_S256x3_S8192x3_S256x8192_1_1_0_0_n_n.lhsNonContracting by decide)]
  rfl
/-- Its axis 1 is the contraction's coordinate. -/
theorem lhs_cross_1 (i : S256x8192.Idx) (q : dot_S256x3_S8192x3_S256x8192_1_1_0_0_n_n.contr.Idx) :
    (dot_S256x3_S8192x3_S256x8192_1_1_0_0_n_n.lhsIdx i q 1).val = (q ⟨0, by decide⟩).val :=
  dot_S256x3_S8192x3_S256x8192_1_1_0_0_n_n.lhsIdx_val_of_single rfl i q
/-- The right index takes the result's axis-1 coordinate on its axis 0. -/
theorem rhs_cross_0 (i : S256x8192.Idx) (q : dot_S256x3_S8192x3_S256x8192_1_1_0_0_n_n.contr.Idx) :
    (dot_S256x3_S8192x3_S256x8192_1_1_0_0_n_n.rhsIdx i q 0).val = (i 1).val := by
  unfold DotDims.rhsIdx
  rw [dif_neg (show ¬(0 : Fin S8192x3.rank) ∈ dot_S256x3_S8192x3_S256x8192_1_1_0_0_n_n.rhsBatch by decide), dif_pos (show (0 : Fin S8192x3.rank) ∈ dot_S256x3_S8192x3_S256x8192_1_1_0_0_n_n.rhsNonContracting by decide)]
  rfl
/-- Its axis 1 is the contraction's coordinate. -/
theorem rhs_cross_1 (i : S256x8192.Idx) (q : dot_S256x3_S8192x3_S256x8192_1_1_0_0_n_n.contr.Idx) :
    (dot_S256x3_S8192x3_S256x8192_1_1_0_0_n_n.rhsIdx i q 1).val = (q ⟨0, by decide⟩).val :=
  dot_S256x3_S8192x3_S256x8192_1_1_0_0_n_n.rhsIdx_val_of_single rfl i q

/-- The product of a [256, 3] array with a [8192, 3] array into the zero tile, at (r, k): Σ_d x[r,d] · y[k,d]. -/
theorem cross_dot_apply (x : FVec Ideal S256x3 .f32) (y : FVec Ideal S8192x3 .f32) (r : Fin 256) (k : Fin 8192) :
    matmul (F := Ideal) dot_S256x3_S8192x3_S256x8192_1_1_0_0_n_n (some .fp32) x y (constant S256x8192 .f32 0x00000000#32) (ix2 r k)
      = ∑ d : Fin 3, x (ix2 r d) * y (ix2 k d) := by
  simp only [matmul]
  rw [Ideal.matmul_constant_zero_apply, ← Equiv.sum_comp (contrEquiv1 dot_S256x3_S8192x3_S256x8192_1_1_0_0_n_n 3 rfl rfl).symm]
  refine Finset.sum_congr rfl fun d _ => ?_
  have hd := contrEquiv1_symm_val dot_S256x3_S8192x3_S256x8192_1_1_0_0_n_n 3 rfl rfl d
  have el : dot_S256x3_S8192x3_S256x8192_1_1_0_0_n_n.lhsIdx (ix2 r k) ((contrEquiv1 dot_S256x3_S8192x3_S256x8192_1_1_0_0_n_n 3 rfl rfl).symm d) = ix2 r d := funext fun a => Fin.ext (by
    match a with
    | ⟨0, _⟩ => exact lhs_cross_0 _ _
    | ⟨1, _⟩ => exact (lhs_cross_1 _ _).trans hd)
  have er : dot_S256x3_S8192x3_S256x8192_1_1_0_0_n_n.rhsIdx (ix2 r k) ((contrEquiv1 dot_S256x3_S8192x3_S256x8192_1_1_0_0_n_n 3 rfl rfl).symm d) = ix2 k d := funext fun a => Fin.ext (by
    match a with
    | ⟨0, _⟩ => exact rhs_cross_0 _ _
    | ⟨1, _⟩ => exact (rhs_cross_1 _ _).trans hd)
  rw [el, er]

/-- The word of 1.0 is 1. -/
theorem one_word : (FloatOps.ofBits .f32 0x3F800000#32 : Ideal .f32) = 1 := IdealRules.sign_bit.ideal_onePat .f32

/-! ## The tile at an index -/

/-- The clamped squared-distance tile at (r, k): the two squared norms, minus twice the inner product, clamped at the
    zero word. The squared norm of the target comes out of its contraction as Σ_d 1 · x1[0,k,d]², and 1 · t = t. -/
theorem pay3_apply (x0 : Vec Ideal S1x256x3 .f32) (x1 : Vec Ideal S1x8192x3 .f32) (r : Fin 256) (k : Fin 8192) :
    k0_pay3 (F := Ideal) x0 x1 (ix2 r k)
      = max ((∑ d : Fin 3, x0 (ix3 0 r d) * x0 (ix3 0 r d)) + (∑ d : Fin 3, x1 (ix3 0 k d) * x1 (ix3 0 k d))
              - Chamfer.c2 * ∑ d : Fin 3, x0 (ix3 0 r d) * x1 (ix3 0 k d)) Chamfer.c0 := by
  unfold k0_pay3
  show max ((broadcastTo S256x8192 _ broadcasts_S256x1_S256x8192 (ix2 r k) + broadcastTo S256x8192 _ broadcasts_S1x8192_S256x8192 (ix2 r k))
      - Chamfer.c2 * matmul (F := Ideal) dot_S256x3_S8192x3_S256x8192_1_1_0_0_n_n (some .fp32) _ _ (constant S256x8192 .f32 0x00000000#32) (ix2 r k)) Chamfer.c0 = _
  rw [broadcastTo_a1_ab_apply, shapeCast_a_a1_apply, rowSum_apply, broadcastTo_1b_ab_apply, ones_dot_apply, cross_dot_apply]
  have e0 : ∀ d : Fin 3, shapeCast S256x3 x0 shapeCasts_S1x256x3_S256x3 (ix2 r d) = x0 (ix3 0 r d) :=
    fun d => shapeCast_1ab_ab_apply x0 _ r d
  have e1 : ∀ d : Fin 3, shapeCast S8192x3 x1 shapeCasts_S1x8192x3_S8192x3 (ix2 k d) = x1 (ix3 0 k d) :=
    fun d => shapeCast_1ab_ab_apply x1 _ k d
  simp only [mulf_apply, broadcast_apply, e0, e1, one_word, one_mul]

end Cert.KernelIdeal.PayDist

end
-- ==== Proof.PayRed.lean ====
/-
  The kernel body's reductions and layout payloads read at an index, at the ideal values, over the
  distance tile left opaque.

  A minimum reduction over one axis is, at each kept index, the fold of `min` from `+∞` over that
  axis's coordinates: the tile's row minimum (over the 8192 columns) and its column minimum (over the
  256 rows). The casts between [256], [256, 1] and [1, 256, 1], between [8192], [1, 8192] and
  [1, 1, 8192], and of [1, 1, 1] to itself only add or drop unit axes, so each reads the operand at the
  index with the same non-unit coordinates. The density sum reduces a [1, 256, 1] vector over its two
  last axes into [1]: the total sum over the 256 rows of |x| = max x (-x).
-/
import proofs.«110999_j3298534884131_1_alg».proof.Proof.Spec
import proofs.«110999_j3298534884131_1_alg».proof.Proof.Gen.KernelIdeal.Skeleton
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

set_option synthInstance.maxSize 4096

noncomputable section

namespace Cert.KernelIdeal.PayRed

open Cert.KernelIdeal Cert.KernelIdeal.Gen Idealize.ShloMosaic Idealize.ShloMosaic.ValueIdx Idealize.SL.Sem
open scoped BigOperators

/-- A minimum reduction over ONE axis, at the ideal values: at each kept index, the fold of `min` from the accumulator's
    value over that axis's coordinates, the kept index with the coordinate inserted. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- An `[a]` vector cast to `[a, 1]` reads, at `(i, u)`, the operand at `i`: both row-major positions are `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The row minimum of the distance tile, stored as a `[1, 256, 1]` block: at `(0, r, 0)` the two casts read the
    reduced vector at `r`, and the reduction over axis 1 there is the fold of `min` from `+∞` over the 8192 columns of
    row `r` (the inserted index is `(r, k)`, coordinate by coordinate). -/
theorem pay4_apply (x0 : Vec Ideal S1x256x3 .f32) (x1 : Vec Ideal S1x8192x3 .f32) (r : Fin 256) :
    k0_pay4 (F := Ideal) x0 x1 (ix3 0 r 0)
      = (Finset.univ : Finset (Fin 8192)).fold min Chamfer.cInf (fun k => k0_pay3 (F := Ideal) x0 x1 (ix2 r k)) := by
  unfold k0_pay4
  refine (shapeCast_ab_1ab_apply _ _ 0 r 0).trans ?_
  refine (shapeCast_a_a1_apply _ _ r 0).trans ?_
  refine (multiReduction_minimumf_single _ _ _ _ _ _).trans ?_
  exact congrArg (fun f => Finset.fold min Chamfer.cInf f (Finset.univ : Finset (Fin 8192)))
    (funext fun k => congrArg (k0_pay3 (F := Ideal) x0 x1)
      (funext fun a => Fin.ext (by match a with | ⟨0, _⟩ => rfl | ⟨1, _⟩ => rfl)))

/-- The running column minimum: at `(0, k)` the elementwise minimum of the stored block at `(0, 0, k)` (a `[1, 1, 8192]`
    block read as `[1, 8192]`) and of the tile's column minimum, the reduction over axis 0: the fold of `min` from `+∞`
    over the 256 rows of column `k` (the inserted index is `(r, k)`). -/
theorem pay7_apply (x0 : Vec Ideal S1x256x3 .f32) (x1 : Vec Ideal S1x8192x3 .f32) (xo : Vec Ideal S1x1x8192 .f32) (k : Fin 8192) :
    k0_pay7 (F := Ideal) x0 x1 xo (ix2 0 k)
      = min (xo (ix3 0 0 k))
          ((Finset.univ : Finset (Fin 256)).fold min Chamfer.cInf (fun r => k0_pay3 (F := Ideal) x0 x1 (ix2 r k))) := by
  unfold k0_pay7
  refine (minimumf_apply _ _ _).trans ?_
  refine congrArg₂ min ?_ ?_
  · exact shapeCast_1ab_ab_apply _ _ 0 k
  · refine (shapeCast_a_1a_apply _ _ 0 k).trans ?_
    refine (multiReduction_minimumf_single _ _ _ _ _ _).trans ?_
    exact congrArg (fun f => Finset.fold min Chamfer.cInf f (Finset.univ : Finset (Fin 256)))
      (funext fun r => congrArg (k0_pay3 (F := Ideal) x0 x1)
        (funext fun a => Fin.ext (by match a with | ⟨0, _⟩ => rfl | ⟨1, _⟩ => rfl)))

/-- A `[1, 8192]` vector stored as a `[1, 1, 8192]` block reads, at `(0, 0, k)`, the vector at `(0, k)`. -/
theorem pay1_apply (v : FVec Ideal S1x8192 .f32) (k : Fin 8192) : k0_pay1 (F := Ideal) v (ix3 0 0 k) = v (ix2 0 k) := by
  unfold k0_pay1
  exact shapeCast_ab_1ab_apply _ _ 0 0 k

/-- The block of `+∞`: the splat of the word `0x7F800000`, whatever the index. -/
theorem pay5_apply (k : Fin 8192) : k0_pay5 (F := Ideal) (ix3 0 0 k) = Chamfer.cInf := by
  unfold k0_pay5
  exact shapeCast_ab_1ab_apply _ _ 0 0 k

/-- The block of zero: the splat of the zero word. -/
theorem pay6_apply : k0_pay6 (F := Ideal) (ix3 0 0 0) = Chamfer.c0 := rfl

/-- The density sum added into the stored scalar: at `(0, 0, 0)` the stored block (a cast of a shape to itself) plus
    the splat of the reduction's one element. The reduction keeps only a unit axis, so it is the sum over every index of
    its `[1, 256, 1]` operand, by coordinates `∑ a < 1, ∑ r < 256, ∑ c < 1`, whose unit sums are their one term; the
    operand at `(0, r, 0)` is `|x|`, that is `max x (-x)`, of the loaded block at `(0, r, 0)` (there and back through
    `[256, 1]`). -/
theorem pay2_apply (x2 : Vec Ideal S1x256x1 .f32) (xo : Vec Ideal S1x1x1 .f32) :
    k0_pay2 (F := Ideal) x2 xo (ix3 0 0 0) = xo (ix3 0 0 0) + ∑ r : Fin 256, max (x2 (ix3 0 r 0)) (-(x2 (ix3 0 r 0))) := by
  unfold k0_pay2
  refine (addf_apply _ _ _).trans ?_
  refine congrArg₂ (· + ·) ?_ ?_
  · exact congrFun (shapeCast_self _ _) _
  · refine (Ideal.multiReduction_add_total (φ := .f32) _ (0x00000000#32) reduces_S1x256x1_S1 (by decide) (.inl rfl) rfl _).trans ?_
    refine (Chamfer.sum_idx3 _).trans ?_
    refine (Fin.sum_univ_one _).trans ?_
    refine Finset.sum_congr rfl fun r _ => ?_
    refine (Fin.sum_univ_one _).trans ?_
    refine (shapeCast_ab_1ab_apply _ _ 0 r 0).trans ?_
    refine (Ideal.absf_def _).trans ?_
    rw [shapeCast_1ab_ab_apply x2 shapeCasts_S1x256x1_S256x1 r 0]

end Cert.KernelIdeal.PayRed

end
-- ==== Proof.Blocks.lean ====
/-
  The pipeline windows' input blocks, read at an index — at any float instance.

  The grid is 4 × 32: point t has batch t / 32 and tile t % 32. Window 0 stages block (t/32, t%32, 0) of shape
  [1,256,3] of the predictions [4,8192,3]; window 1 block (t/32, 0, 0) of shape [1,8192,3] of the targets; window 2
  block (t/32, t%32, 0) of shape [1,256,1] of the densities as a [4,8192,1] array, which one reshape wrote from the
  [4,8192] argument before the region. A block's entry at (0, r, d) is the array's entry at
  (index₀ · 1 + 0, index₁ · rows + r, index₂ · cols + d): the block index times the block size plus the coordinate inside.
-/
import proofs.«110999_j3298534884131_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]
variable (m : (ℓ : Loc nD τ sig) → Buf (Elt F) ℓ)

/-- The batch of point `t`. -/
def bOf (t : Fin cfg0.N) : Fin 4 := ⟨t.val / 32, by have h : cfg0.N = 128 := N_0; have := t.isLt; omega⟩
/-- Row `r` of point `t`'s tile, as a row of the whole cloud. -/
def rowOf (t : Fin cfg0.N) (r : Fin 256) : Fin 8192 :=
  ⟨256 * (t.val % 32) + r.val, by have := r.isLt; omega⟩

/-- Window 0's block index at every grid point. -/
theorem idx0 : ∀ t : Fin cfg0.N, win0_0.index t 0 = t.val / 32 ∧ win0_0.index t 1 = t.val % 32 ∧ win0_0.index t 2 = 0 :=
  (by decide +kernel : ∀ t : Fin grid0.N, win0_0.index t 0 = t.val / 32 ∧ win0_0.index t 1 = t.val % 32 ∧ win0_0.index t 2 = 0)
/-- Window 1's block index at every grid point: the batch, then the whole cloud. -/
theorem idx1 : ∀ t : Fin cfg0.N, win0_1.index t 0 = t.val / 32 ∧ win0_1.index t 1 = 0 ∧ win0_1.index t 2 = 0 :=
  (by decide +kernel : ∀ t : Fin grid0.N, win0_1.index t 0 = t.val / 32 ∧ win0_1.index t 1 = 0 ∧ win0_1.index t 2 = 0)
/-- Window 2's block index at every grid point. -/
theorem idx2 : ∀ t : Fin cfg0.N, win0_2.index t 0 = t.val / 32 ∧ win0_2.index t 1 = t.val % 32 ∧ win0_2.index t 2 = 0 :=
  (by decide +kernel : ∀ t : Fin grid0.N, win0_2.index t 0 = t.val / 32 ∧ win0_2.index t 1 = t.val % 32 ∧ win0_2.index t 2 = 0)

/-- Window 0's block at point `t`, entry `(0, r, d)`: the predictions at batch `t / 32`, row `256 · (t % 32) + r`,
    coordinate `d` — block index times block size plus the coordinate inside, axis by axis. -/
theorem iblk0_apply (c : Dev nD) (t : Fin cfg0.N) (r : Fin 256) (d : Fin 3) :
    (iblk m c 0 t : Vec F S1x256x3 .f32) (ix3 0 r d) = V m c main_arg0 (ix3 (bOf t) (rowOf t r) d) := by
  unfold iblk
  rw [View.read_apply]
  show V m c main_arg0 _ = V m c main_arg0 _
  congr 1
  funext a
  apply Fin.ext
  match a with
  | ⟨0, _⟩ => show win0_0.index t 0 * 1 + 1 * 0 = t.val / 32; rw [(idx0 t).1]; omega
  | ⟨1, _⟩ => show win0_0.index t 1 * 256 + 1 * r.val = 256 * (t.val % 32) + r.val; rw [(idx0 t).2.1]; omega
  | ⟨2, _⟩ => show win0_0.index t 2 * 3 + 1 * d.val = d.val; rw [(idx0 t).2.2]; omega

/-- Window 1's block at point `t`, entry `(0, k, d)`: the targets at batch `t / 32`, row `k`, coordinate `d` — the
    block is the batch's whole cloud. -/
theorem iblk1_apply (c : Dev nD) (t : Fin cfg0.N) (k : Fin 8192) (d : Fin 3) :
    (iblk m c 1 t : Vec F S1x8192x3 .f32) (ix3 0 k d) = V m c main_arg1 (ix3 (bOf t) k d) := by
  unfold iblk
  rw [View.read_apply]
  show V m c main_arg1 _ = V m c main_arg1 _
  congr 1
  funext a
  apply Fin.ext
  match a with
  | ⟨0, _⟩ => show win0_1.index t 0 * 1 + 1 * 0 = t.val / 32; rw [(idx1 t).1]; omega
  | ⟨1, _⟩ => show win0_1.index t 1 * 8192 + 1 * k.val = k.val; rw [(idx1 t).2.1]; omega
  | ⟨2, _⟩ => show win0_1.index t 2 * 3 + 1 * d.val = d.val; rw [(idx1 t).2.2]; omega

/-- Window 2's block at point `t`, entry `(0, r, 0)`: the rank-3 densities at batch `t / 32`, row `256 · (t % 32) + r`. -/
theorem iblk2_apply (c : Dev nD) (t : Fin cfg0.N) (r : Fin 256) :
    (iblk m c 2 t : Vec F S1x256x1 .f32) (ix3 0 r 0) = V m c main_v0 (ix3 (bOf t) (rowOf t r) 0) := by
  unfold iblk
  rw [View.read_apply]
  show V m c main_v0 _ = V m c main_v0 _
  congr 1
  funext a
  apply Fin.ext
  match a with
  | ⟨0, _⟩ => show win0_2.index t 0 * 1 + 1 * 0 = t.val / 32; rw [(idx2 t).1]; omega
  | ⟨1, _⟩ => show win0_2.index t 1 * 256 + 1 * r.val = 256 * (t.val % 32) + r.val; rw [(idx2 t).2.1]; omega
  | ⟨2, _⟩ => show win0_2.index t 2 * 1 + 1 * 0 = 0; rw [(idx2 t).2.2]

/-- The rank-3 densities as the region finds them: the one reshape before it, of the launched `[4, 8192]` argument. -/
theorem V_main_v0_eq (c : Dev nD) :
    (V m c main_v0 : S4x8192x1.Idx → Elt F .f32) = shapeCast S4x8192x1 (m ((c : Thread nD τ).loc main_arg2)) shapeCasts_S4x8192_S4x8192x1 := by
  show StableHlo.after hostOps0 (fun b => m (c, b)) (Proc.devRef .tc main_v0) = _
  after_results
  rfl

/-- Read at `(b, n, 0)` they are the argument at `(b, n)`: both have row-major position `8192 · b + n`. -/
theorem V_main_v0_apply (c : Dev nD) (b : Fin 4) (n : Fin 8192) :
    V m c main_v0 (ix3 b n 0) = m ((c : Thread nD τ).loc main_arg2) (ix2 b n) := by
  have e := congrFun (V_main_v0_eq m c) (ix3 b n 0)
  refine e.trans ?_
  refine shapeCast_apply (s := S4x8192) (t := S4x8192x1) _ shapeCasts_S4x8192_S4x8192x1 (ix3 b n 0) (ix2 b n) ?_
  rw [Shape.rowMajor_val_two, Shape.rowMajor_val_three]
  show b.val * 8192 + n.val = (b.val * 8192 + n.val) * 1 + 0
  omega

end Cert.KernelIdeal.Blocks

end
-- ==== Proof.Invariant.lean ====
/-
  What the three output staging buffers hold after each grid point, at the ideal values.

  The grid is 4 × 32: point (b, j) works on batch b and on the 256 predictions of tile j, against all 8192 targets.
  Its distance tile entry (r, k) is d2 P T b (256 j + r) k (the kernel's two contractions and its row sum read at an
  index, the blocks read through their windows). So after point (b, j)
    * the predictions' buffer holds, in row r, the minimum over all targets: nnx P T b (256 j + r);
    * the targets' buffer holds, in column k, the minimum from +∞ over the predictions of tiles 0 … j: tile 0 stores +∞
      first and takes the minimum with it, every later tile takes the minimum with what the tile before left;
    * the density buffer holds the sum of |D[b, n]| over the predictions n of tiles 0 … j: tile 0 stores 0 first.
  The last two by induction on the tile; the points before tile j+1 are those before tile j and tile j itself.
-/
import proofs.«110999_j3298534884131_1_alg».proof.Proof.Gen.KernelIdeal.Frame
import proofs.«110999_j3298534884131_1_alg».proof.Proof.Spec
import proofs.«110999_j3298534884131_1_alg».proof.Proof.TileFold
import proofs.«110999_j3298534884131_1_alg».proof.Proof.Pieces
import proofs.«110999_j3298534884131_1_alg».proof.Proof.PayDist
import proofs.«110999_j3298534884131_1_alg».proof.Proof.PayRed
import proofs.«110999_j3298534884131_1_alg».proof.Proof.Blocks
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.Inv

open Cert.KernelIdeal Cert.KernelIdeal.Gen Cert.KernelIdeal.Blocks Chamfer

variable (m : (ℓ : Loc nD τ sig) → Buf (Elt Ideal) ℓ)

/-- Point `(b, j)` of the 4 × 32 grid, in row-major order. -/
def pt (b j : ℕ) (hb : b < 4) (hj : j < 32) : Fin cfg0.N := ⟨32 * b + j, by rw [show cfg0.N = 128 from N_0]; omega⟩

theorem bOf_pt (b j : ℕ) (hb : b < 4) (hj : j < 32) : bOf (pt b j hb hj) = ⟨b, hb⟩ :=
  Fin.ext (by show (32 * b + j) / 32 = b; omega)
theorem rowOf_pt (b j : ℕ) (hb : b < 4) (hj : j < 32) (r : Fin 256) : rowOf (pt b j hb hj) r = tilePt j hj r :=
  Fin.ext (by show 256 * ((32 * b + j) % 32) + r.val = 256 * j + r.val; have : (32 * b + j) % 32 = j := by omega
              rw [this])

/-- The arrays as the region finds them. -/
abbrev P (c : Dev nD) : Pts.Idx → EReal := V m c main_arg0
abbrev T (c : Dev nD) : Pts.Idx → EReal := V m c main_arg1
abbrev D (c : Dev nD) : Dens.Idx → EReal := m ((c : Thread nD τ).loc main_arg2)

/-- The three input blocks at a point, at their literal types. -/
abbrev xb0 (c : Dev nD) (t : Fin cfg0.N) : Vec Ideal S1x256x3 .f32 := iblk m c 0 t
abbrev xb1 (c : Dev nD) (t : Fin cfg0.N) : Vec Ideal S1x8192x3 .f32 := iblk m c 1 t
abbrev xb2 (c : Dev nD) (t : Fin cfg0.N) : Vec Ideal S1x256x1 .f32 := iblk m c 2 t

theorem tile_d2 (c : Dev nD) (b j : ℕ) (hb : b < 4) (hj : j < 32) (r : Fin 256) (k : Fin 8192) :
    k0_pay3 (F := Ideal) (iblk m c 0 (pt b j hb hj)) (iblk m c 1 (pt b j hb hj)) (ix2 r k)
      = d2 (P m c) (T m c) ⟨b, hb⟩ (tilePt j hj r) k := by
  refine (PayDist.pay3_apply _ _ r k).trans ?_
  simp only [iblk0_apply, iblk1_apply, bOf_pt, rowOf_pt]
  rfl

/-- At a point where the tile index is zero the three staging buffers hold: the row minima of the distance tile;
    the column minima of the tile, taken from `+∞`; the tile's absolute-density sum, taken from `0`. -/
theorem outs_A (c : Dev nD) (t : Fin cfg0.N) (h0 : t.val % 32 = 0) :
    outsAt0 m c t.val t.isLt
      = (k0_pay4 (iblk m c 0 t) (iblk m c 1 t),
         k0_pay1 (k0_pay7 (iblk m c 0 t) (iblk m c 1 t) (k0_pay5 (F := Ideal))),
         k0_pay2 (iblk m c 2 t) (k0_pay6 (F := Ideal))) :=
  (outsAt0_A m c t h0).trans (congrArg₂ Prod.mk
    (Pieces.out_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t))
    (congrArg₂ Prod.mk
      (Pieces.out_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t))
      (Pieces.out_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t))))

/-- At any other point: the same over what the point before left in the two carried buffers. -/
theorem outs_B (c : Dev nD) (t : Fin cfg0.N) (h0 : ¬t.val % 32 = 0) :
    outsAt0 m c t.val t.isLt
      = (k0_pay4 (iblk m c 0 t) (iblk m c 1 t),
         k0_pay1 (k0_pay7 (iblk m c 0 t) (iblk m c 1 t) (outsAt0 m c (t.val - 1) (Nat.lt_of_le_of_lt (Nat.sub_le _ _) t.isLt)).2.1),
         k0_pay2 (iblk m c 2 t) (outsAt0 m c (t.val - 1) (Nat.lt_of_le_of_lt (Nat.sub_le _ _) t.isLt)).2.2) :=
  (outsAt0_B m c t h0).trans (congrArg₂ Prod.mk
    (Pieces.out_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)
    (congrArg₂ Prod.mk
      (Pieces.out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)
      (Pieces.out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)))

/-! ## What the staging buffers hold after point `(b, j)` -/

/-- The predictions' buffer after point `(b, j)`: row `r` holds the nearest-target distance of prediction `256 j + r`. -/
theorem inv3 (c : Dev nD) (b j : ℕ) (hb : b < 4) (hj : j < 32) (r : Fin 256) :
    (outsAt0 m c (pt b j hb hj).val (pt b j hb hj).isLt).1 (ix3 0 r 0)
      = nnx (P m c) (T m c) ⟨b, hb⟩ (tilePt j hj r) := by
  have key : k0_pay4 (F := Ideal) (iblk m c 0 (pt b j hb hj)) (iblk m c 1 (pt b j hb hj)) (ix3 0 r 0)
      = nnx (P m c) (T m c) ⟨b, hb⟩ (tilePt j hj r) := by
    refine (PayRed.pay4_apply _ _ r).trans ?_
    unfold nnx
    exact Finset.fold_congr fun k _ => tile_d2 m c b j hb hj r k
  by_cases h0 : (pt b j hb hj).val % 32 = 0
  · rw [outs_A m c (pt b j hb hj) h0]; dsimp only; exact key
  · rw [outs_B m c (pt b j hb hj) h0]; dsimp only; exact key

/-- The column minima of the tile at point `(b, j)`. -/
theorem tile_colmin (c : Dev nD) (b j : ℕ) (hb : b < 4) (hj : j < 32) (k : Fin 8192) :
    (Finset.univ : Finset (Fin 256)).fold min cInf
        (fun r => k0_pay3 (F := Ideal) (iblk m c 0 (pt b j hb hj)) (iblk m c 1 (pt b j hb hj)) (ix2 r k))
      = (Finset.univ : Finset (Fin 256)).fold min cInf (fun r => d2 (P m c) (T m c) ⟨b, hb⟩ (tilePt j hj r) k) :=
  Finset.fold_congr fun r _ => tile_d2 m c b j hb hj r k

/-- The targets' buffer after point `(b, j)`: column `k` holds the minimum, from `+∞`, of the distances to target `k`
    over the predictions of tiles `0 … j`. By induction on the tile: tile `0` resets the buffer to `+∞` first. -/
theorem inv4 (c : Dev nD) (b : ℕ) (hb : b < 4) (k : Fin 8192) : ∀ (j : ℕ) (hj : j < 32),
    (outsAt0 m c (pt b j hb hj).val (pt b j hb hj).isLt).2.1 (ix3 0 0 k)
      = (firstTiles (j + 1)).fold min cInf (fun n => d2 (P m c) (T m c) ⟨b, hb⟩ n k)
  | 0, hj => by
    have h0 : (pt b 0 hb hj).val % 32 = 0 := by show (32 * b + 0) % 32 = 0; omega
    rw [outs_A m c (pt b 0 hb hj) h0]; dsimp only
    refine (PayRed.pay1_apply _ k).trans ((PayRed.pay7_apply _ _ _ k).trans ?_)
    rw [PayRed.pay5_apply, tile_colmin, min_firstTiles_succ _ 0 hj, min_firstTiles_zero]
  | j + 1, hj => by
    have hB : ¬(pt b (j + 1) hb hj).val % 32 = 0 := by show ¬(32 * b + (j + 1)) % 32 = 0; omega
    rw [outs_B m c (pt b (j + 1) hb hj) hB]; dsimp only
    refine (PayRed.pay1_apply _ k).trans ((PayRed.pay7_apply _ _ _ k).trans ?_)
    rw [tile_colmin, min_firstTiles_succ _ (j + 1) hj]
    exact congrArg (min · _) (inv4 c b hb k j (by omega))

/-- The density tile read at point `(b, j)`. -/
theorem tile_abs (c : Dev nD) (b j : ℕ) (hb : b < 4) (hj : j < 32) :
    (∑ r : Fin 256, max (xb2 m c (pt b j hb hj) (ix3 0 r 0)) (-(xb2 m c (pt b j hb hj) (ix3 0 r 0))))
      = ∑ r : Fin 256, max (D m c (ix2 ⟨b, hb⟩ (tilePt j hj r))) (-(D m c (ix2 ⟨b, hb⟩ (tilePt j hj r)))) := by
  refine Finset.sum_congr rfl fun r _ => ?_
  simp only [xb2, iblk2_apply, bOf_pt, rowOf_pt]
  rw [V_main_v0_apply]

/-- The density buffer after point `(b, j)`: the sum of the absolute densities of tiles `0 … j`. -/
theorem inv5 (c : Dev nD) (b : ℕ) (hb : b < 4) : ∀ (j : ℕ) (hj : j < 32),
    (outsAt0 m c (pt b j hb hj).val (pt b j hb hj).isLt).2.2 (ix3 0 0 0)
      = ∑ n ∈ firstTiles (j + 1), max (D m c (ix2 ⟨b, hb⟩ n)) (-(D m c (ix2 ⟨b, hb⟩ n)))
  | 0, hj => by
    have h0 : (pt b 0 hb hj).val % 32 = 0 := by show (32 * b + 0) % 32 = 0; omega
    rw [outs_A m c (pt b 0 hb hj) h0]; dsimp only
    refine (PayRed.pay2_apply _ _).trans ?_
    rw [PayRed.pay6_apply, c0_eq, zero_add, tile_abs, sum_firstTiles_succ _ 0 hj, sum_firstTiles_zero, zero_add]
  | j + 1, hj => by
    have hB : ¬(pt b (j + 1) hb hj).val % 32 = 0 := by show ¬(32 * b + (j + 1)) % 32 = 0; omega
    rw [outs_B m c (pt b (j + 1) hb hj) hB]; dsimp only
    refine (PayRed.pay2_apply _ _).trans ?_
    rw [tile_abs, sum_firstTiles_succ _ (j + 1) hj]
    exact congrArg (· + _) (inv5 c b hb j (by omega))

end Cert.KernelIdeal.Inv
end
-- ==== Proof.Final.lean ====
/-
  From blocks to the arrays. The grid is 4 × 32; point `t` (below 128) is batch `t / 32`, tile `t % 32`.
  Three output arrays:
    * `[4, 8192, 1]`, block `[1, 256, 1]` at block index (t / 32, t % 32, 0), written back at every point;
    * `[4, 1, 8192]`, block `[1, 1, 8192]` at block index (t / 32, 0, 0), written back where `t % 32 = 31`;
    * `[4, 1, 1]`,   block `[1, 1, 1]`   at block index (t / 32, 0, 0), written back where `t % 32 = 31`.
  For each: if what the staging buffer holds after a writing point, read at a block coordinate, is `G` at the array
  coordinate (block index × block size + block coordinate on every axis), then the array ends as `G`, because every
  array index lies in the block of a writing point: for the first array the point `32 · i₀ + i₁ / 256`, for the other
  two the point `32 · i₀ + 31`.
-/
import proofs.«110999_j3298534884131_1_alg».proof.Proof.Gen.KernelIdeal.Frame
import Idealize.ShloMosaic.Lib.Pipeline.Value
import Idealize.ShloMosaic.Lib.ValueIdx

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.ValueIdx

variable {F : FTy → Type} [FloatOps F]
variable (m : (ℓ : Loc nD τ sig) → Buf (Elt F) ℓ)

/-! ## The bounds of a point's batch and of a row inside its tile -/

/-- A grid point is below 128. -/
theorem tN (t : Fin cfg0.N) : t.val < 128 := lt_of_lt_of_eq t.isLt (show cfg0.N = 128 from N_0)
/-- Its batch `t / 32` is below 4. -/
theorem bOf_lt (t : Fin cfg0.N) : t.val / 32 < 4 := by have := tN t; omega
/-- Row `r` of tile `t % 32` is row `256 · (t % 32) + r` of the batch, below 8192. -/
theorem rowOf_lt (t : Fin cfg0.N) (r : Fin 256) : 256 * (t.val % 32) + r.val < 8192 := by
  have := r.isLt; omega

/-! ## Output window 3: one block `[1, 256, 1]` per point, written back at every point -/

/-- The block index of window 3 at point `t` is (t / 32, t % 32, 0): decided over the 128 points. -/
theorem idx3 : ∀ t : Fin cfg0.N, win0_3.index t (0 : Fin 3) = t.val / 32 ∧ win0_3.index t (1 : Fin 3) = t.val % 32
    ∧ win0_3.index t (2 : Fin 3) = 0 :=
  (by decide +kernel : ∀ t : Fin grid0.N, _)

/-- What point `t` writes back to the first array is `G` read through the point's block: a block coordinate `y` is
    (0, y₁, 0), the hypothesis gives the staged value there as `G` at (t / 32, 256 · (t % 32) + y₁, 0), and that is where
    the block puts `y` in the array (block index × block size + y on each axis). -/
theorem flushed3_eq (c : Dev nD) (G : S4x8192x1.Idx → Elt F .f32)
    (h : ∀ (t : Fin cfg0.N) (r : Fin 256), (outsAt0 m c t.val t.isLt).1 (ix3 0 r 0)
      = G (ix3 ⟨t.val / 32, bOf_lt t⟩ ⟨256 * (t.val % 32) + r.val, rowOf_lt t r⟩ 0))
    (t : Fin cfg0.N) :
    (dats m 0 c).flushed 3 t = ((cfg0.win 3).blk t).view.read (Elt F) G := by
  show (cfg0.win 3).cut (grid0.coords t) ((dats m 0 c).after 3 t) = _
  rw [after0_3]
  funext y
  show (outsAt0 m c t.val t.isLt).1 y = G (((cfg0.win 3).blk t).view.emb y)
  let y' : S1x256x1.Idx := y
  have y0 : (y' 0).val < 1 := (y' 0).isLt
  have y1 : (y' 1).val < 256 := (y' 1).isLt
  have y2 : (y' 2).val < 1 := (y' 2).isLt
  have hy : y' = ix3 0 (y' 1) 0 := by
    funext a
    match a with
    | ⟨0, _⟩ => exact Fin.ext (by show (y' 0).val = 0; omega)
    | ⟨1, _⟩ => rfl
    | ⟨2, _⟩ => exact Fin.ext (by show (y' 2).val = 0; omega)
  obtain ⟨e0, e1, e2⟩ := idx3 t
  have e : ((cfg0.win 3).blk t).view.emb y
      = ix3 ⟨t.val / 32, bOf_lt t⟩ ⟨256 * (t.val % 32) + (y' 1).val, rowOf_lt t (y' 1)⟩ 0 := by
    funext a; apply Fin.ext
    match a with
    | ⟨0, _⟩ => show win0_3.index t (0 : Fin 3) * 1 + 1 * (y' 0).val = t.val / 32; omega
    | ⟨1, _⟩ => show win0_3.index t (1 : Fin 3) * 256 + 1 * (y' 1).val = 256 * (t.val % 32) + (y' 1).val; omega
    | ⟨2, _⟩ => show win0_3.index t (2 : Fin 3) * 1 + 1 * (y' 2).val = 0; omega
  exact (congrArg (outsAt0 m c t.val t.isLt).1 hy).trans ((h t (y' 1)).trans (congrArg G e.symm))

/-- An array index is in point `t`'s block iff on each axis it lies in [index × size, index × size + size). -/
theorem mem_blk3 (t : Fin cfg0.N) (i : S4x8192x1.Idx) :
    i ∈ ((cfg0.win 3).blk t).view.set ↔ ∀ a : Fin 3, win0_3.index t a * S1x256x1.size a ≤ (i a).val
      ∧ (i a).val < win0_3.index t a * S1x256x1.size a + S1x256x1.size a := by
  show i ∈ ((View.whole main_v1_0).slice (win0_3.rect t)).set ↔ _
  rw [View.set_slice_whole, Rect.mem_set_unit]
  exact Iff.rfl

/-- Every index `i` of the first array is in the block of the point `32 · i₀ + i₁ / 256`, which writes back. -/
theorem cover3 (i : S4x8192x1.Idx) :
    ∃ t : Fin cfg0.N, (cfg0.win 3).flush t = true ∧ i ∈ ((cfg0.win 3).blk t).view.set := by
  have i0 : (i 0).val < 4 := (i 0).isLt
  have i1 : (i 1).val < 8192 := (i 1).isLt
  have i2 : (i 2).val < 1 := (i 2).isLt
  have hlt : 32 * (i 0).val + (i 1).val / 256 < cfg0.N := lt_of_lt_of_eq (by omega) N_0.symm
  obtain ⟨e0, e1, e2⟩ := idx3 ⟨32 * (i 0).val + (i 1).val / 256, hlt⟩
  refine ⟨⟨32 * (i 0).val + (i 1).val / 256, hlt⟩, flush0_3 _, ?_⟩
  rw [mem_blk3]
  intro a
  match a with
  | ⟨0, _⟩ =>
    show win0_3.index ⟨32 * (i 0).val + (i 1).val / 256, hlt⟩ (0 : Fin 3) * 1 ≤ (i 0).val
      ∧ (i 0).val < win0_3.index ⟨32 * (i 0).val + (i 1).val / 256, hlt⟩ (0 : Fin 3) * 1 + 1
    rw [e0]; dsimp only; omega
  | ⟨1, _⟩ =>
    show win0_3.index ⟨32 * (i 0).val + (i 1).val / 256, hlt⟩ (1 : Fin 3) * 256 ≤ (i 1).val
      ∧ (i 1).val < win0_3.index ⟨32 * (i 0).val + (i 1).val / 256, hlt⟩ (1 : Fin 3) * 256 + 256
    rw [e1]; dsimp only; omega
  | ⟨2, _⟩ =>
    show win0_3.index ⟨32 * (i 0).val + (i 1).val / 256, hlt⟩ (2 : Fin 3) * 1 ≤ (i 2).val
      ∧ (i 2).val < win0_3.index ⟨32 * (i 0).val + (i 1).val / 256, hlt⟩ (2 : Fin 3) * 1 + 1
    rw [e2]; omega

/-- THE FIRST ARRAY after the run is `G`, given the staged block after every point. -/
theorem final3 (c : Dev nD) (G : S4x8192x1.Idx → Elt F .f32)
    (h : ∀ (t : Fin cfg0.N) (r : Fin 256), (outsAt0 m c t.val t.isLt).1 (ix3 0 r 0)
      = G (ix3 ⟨t.val / 32, bOf_lt t⟩ ⟨256 * (t.val % 32) + r.val, rowOf_lt t r⟩ 0)) :
    (dats m 0 c).arrAt 3 cfg0.N = G :=
  (dats m 0 c).arrAt_eq_of_cover 3 G (fun t _ => flushed3_eq m c G h t) cover3

/-! ## Output window 4: one block `[1, 1, 8192]` per batch, written back at the last tile of the batch -/

/-- The block index of window 4 at point `t` is (t / 32, 0, 0): decided over the 128 points. -/
theorem idx4 : ∀ t : Fin cfg0.N, win0_4.index t (0 : Fin 3) = t.val / 32 ∧ win0_4.index t (1 : Fin 3) = 0
    ∧ win0_4.index t (2 : Fin 3) = 0 :=
  (by decide +kernel : ∀ t : Fin grid0.N, _)

/-- What a writing point `t` (so `t % 32 = 31`) writes back to the second array is `G` read through its block: a block
    coordinate is (0, 0, y₂), sitting in the array at (t / 32, 0, y₂). -/
theorem flushed4_eq (c : Dev nD) (G : S4x1x8192.Idx → Elt F .f32)
    (h : ∀ (t : Fin cfg0.N), t.val % 32 = 31 → ∀ k : Fin 8192, (outsAt0 m c t.val t.isLt).2.1 (ix3 0 0 k)
      = G (ix3 ⟨t.val / 32, bOf_lt t⟩ 0 k))
    (t : Fin cfg0.N) (hf : (cfg0.win 4).flush t = true) :
    (dats m 0 c).flushed 4 t = ((cfg0.win 4).blk t).view.read (Elt F) G := by
  have h31 : t.val % 32 = 31 := (flush0_4 t).mp hf
  show (cfg0.win 4).cut (grid0.coords t) ((dats m 0 c).after 4 t) = _
  rw [after0_4]
  funext y
  show (outsAt0 m c t.val t.isLt).2.1 y = G (((cfg0.win 4).blk t).view.emb y)
  let y' : S1x1x8192.Idx := y
  have y0 : (y' 0).val < 1 := (y' 0).isLt
  have y1 : (y' 1).val < 1 := (y' 1).isLt
  have y2 : (y' 2).val < 8192 := (y' 2).isLt
  have hy : y' = ix3 0 0 (y' 2) := by
    funext a
    match a with
    | ⟨0, _⟩ => exact Fin.ext (by show (y' 0).val = 0; omega)
    | ⟨1, _⟩ => exact Fin.ext (by show (y' 1).val = 0; omega)
    | ⟨2, _⟩ => rfl
  obtain ⟨e0, e1, e2⟩ := idx4 t
  have e : ((cfg0.win 4).blk t).view.emb y = ix3 ⟨t.val / 32, bOf_lt t⟩ 0 (y' 2) := by
    funext a; apply Fin.ext
    match a with
    | ⟨0, _⟩ => show win0_4.index t (0 : Fin 3) * 1 + 1 * (y' 0).val = t.val / 32; omega
    | ⟨1, _⟩ => show win0_4.index t (1 : Fin 3) * 1 + 1 * (y' 1).val = 0; omega
    | ⟨2, _⟩ => show win0_4.index t (2 : Fin 3) * 8192 + 1 * (y' 2).val = (y' 2).val; omega
  exact (congrArg (outsAt0 m c t.val t.isLt).2.1 hy).trans ((h t h31 (y' 2)).trans (congrArg G e.symm))

/-- An array index is in point `t`'s block iff on each axis it lies in [index × size, index × size + size). -/
theorem mem_blk4 (t : Fin cfg0.N) (i : S4x1x8192.Idx) :
    i ∈ ((cfg0.win 4).blk t).view.set ↔ ∀ a : Fin 3, win0_4.index t a * S1x1x8192.size a ≤ (i a).val
      ∧ (i a).val < win0_4.index t a * S1x1x8192.size a + S1x1x8192.size a := by
  show i ∈ ((View.whole main_v1_1).slice (win0_4.rect t)).set ↔ _
  rw [View.set_slice_whole, Rect.mem_set_unit]
  exact Iff.rfl

/-- Every index `i` of the second array is in the block of the point `32 · i₀ + 31`, the last tile of batch `i₀`,
    which writes back. -/
theorem cover4 (i : S4x1x8192.Idx) :
    ∃ t : Fin cfg0.N, (cfg0.win 4).flush t = true ∧ i ∈ ((cfg0.win 4).blk t).view.set := by
  have i0 : (i 0).val < 4 := (i 0).isLt
  have i1 : (i 1).val < 1 := (i 1).isLt
  have i2 : (i 2).val < 8192 := (i 2).isLt
  have hlt : 32 * (i 0).val + 31 < cfg0.N := lt_of_lt_of_eq (by omega) N_0.symm
  obtain ⟨e0, e1, e2⟩ := idx4 ⟨32 * (i 0).val + 31, hlt⟩
  refine ⟨⟨32 * (i 0).val + 31, hlt⟩, (flush0_4 _).mpr (by dsimp only; omega), ?_⟩
  rw [mem_blk4]
  intro a
  match a with
  | ⟨0, _⟩ =>
    show win0_4.index ⟨32 * (i 0).val + 31, hlt⟩ (0 : Fin 3) * 1 ≤ (i 0).val
      ∧ (i 0).val < win0_4.index ⟨32 * (i 0).val + 31, hlt⟩ (0 : Fin 3) * 1 + 1
    rw [e0]; dsimp only; omega
  | ⟨1, _⟩ =>
    show win0_4.index ⟨32 * (i 0).val + 31, hlt⟩ (1 : Fin 3) * 1 ≤ (i 1).val
      ∧ (i 1).val < win0_4.index ⟨32 * (i 0).val + 31, hlt⟩ (1 : Fin 3) * 1 + 1
    rw [e1]; omega
  | ⟨2, _⟩ =>
    show win0_4.index ⟨32 * (i 0).val + 31, hlt⟩ (2 : Fin 3) * 8192 ≤ (i 2).val
      ∧ (i 2).val < win0_4.index ⟨32 * (i 0).val + 31, hlt⟩ (2 : Fin 3) * 8192 + 8192
    rw [e2]; omega

/-- THE SECOND ARRAY after the run is `G`, given the staged block after the last tile of every batch. -/
theorem final4 (c : Dev nD) (G : S4x1x8192.Idx → Elt F .f32)
    (h : ∀ (t : Fin cfg0.N), t.val % 32 = 31 → ∀ k : Fin 8192, (outsAt0 m c t.val t.isLt).2.1 (ix3 0 0 k)
      = G (ix3 ⟨t.val / 32, bOf_lt t⟩ 0 k)) :
    (dats m 0 c).arrAt 4 cfg0.N = G :=
  (dats m 0 c).arrAt_eq_of_cover 4 G (fun t hf => flushed4_eq m c G h t hf) cover4

/-! ## Output window 5: one word per batch, written back at the last tile of the batch -/

/-- The block index of window 5 at point `t` is (t / 32, 0, 0): decided over the 128 points. -/
theorem idx5 : ∀ t : Fin cfg0.N, win0_5.index t (0 : Fin 3) = t.val / 32 ∧ win0_5.index t (1 : Fin 3) = 0
    ∧ win0_5.index t (2 : Fin 3) = 0 :=
  (by decide +kernel : ∀ t : Fin grid0.N, _)

/-- What a writing point `t` (so `t % 32 = 31`) writes back to the third array is `G` read through its block: the one
    block coordinate (0, 0, 0) sits in the array at (t / 32, 0, 0). -/
theorem flushed5_eq (c : Dev nD) (G : S4x1x1.Idx → Elt F .f32)
    (h : ∀ (t : Fin cfg0.N), t.val % 32 = 31 → (outsAt0 m c t.val t.isLt).2.2 (ix3 0 0 0)
      = G (ix3 ⟨t.val / 32, bOf_lt t⟩ 0 0))
    (t : Fin cfg0.N) (hf : (cfg0.win 5).flush t = true) :
    (dats m 0 c).flushed 5 t = ((cfg0.win 5).blk t).view.read (Elt F) G := by
  have h31 : t.val % 32 = 31 := (flush0_5 t).mp hf
  show (cfg0.win 5).cut (grid0.coords t) ((dats m 0 c).after 5 t) = _
  rw [after0_5]
  funext y
  show (outsAt0 m c t.val t.isLt).2.2 y = G (((cfg0.win 5).blk t).view.emb y)
  let y' : S1x1x1.Idx := y
  have y0 : (y' 0).val < 1 := (y' 0).isLt
  have y1 : (y' 1).val < 1 := (y' 1).isLt
  have y2 : (y' 2).val < 1 := (y' 2).isLt
  have hy : y' = ix3 0 0 0 := by
    funext a
    match a with
    | ⟨0, _⟩ => exact Fin.ext (by show (y' 0).val = 0; omega)
    | ⟨1, _⟩ => exact Fin.ext (by show (y' 1).val = 0; omega)
    | ⟨2, _⟩ => exact Fin.ext (by show (y' 2).val = 0; omega)
  obtain ⟨e0, e1, e2⟩ := idx5 t
  have e : ((cfg0.win 5).blk t).view.emb y = ix3 ⟨t.val / 32, bOf_lt t⟩ 0 0 := by
    funext a; apply Fin.ext
    match a with
    | ⟨0, _⟩ => show win0_5.index t (0 : Fin 3) * 1 + 1 * (y' 0).val = t.val / 32; omega
    | ⟨1, _⟩ => show win0_5.index t (1 : Fin 3) * 1 + 1 * (y' 1).val = 0; omega
    | ⟨2, _⟩ => show win0_5.index t (2 : Fin 3) * 1 + 1 * (y' 2).val = 0; omega
  exact (congrArg (outsAt0 m c t.val t.isLt).2.2 hy).trans ((h t h31).trans (congrArg G e.symm))

/-- An array index is in point `t`'s block iff on each axis it lies in [index × size, index × size + size). -/
theorem mem_blk5 (t : Fin cfg0.N) (i : S4x1x1.Idx) :
    i ∈ ((cfg0.win 5).blk t).view.set ↔ ∀ a : Fin 3, win0_5.index t a * S1x1x1.size a ≤ (i a).val
      ∧ (i a).val < win0_5.index t a * S1x1x1.size a + S1x1x1.size a := by
  show i ∈ ((View.whole main_v1_2).slice (win0_5.rect t)).set ↔ _
  rw [View.set_slice_whole, Rect.mem_set_unit]
  exact Iff.rfl

/-- Every index `i` of the third array is in the block of the point `32 · i₀ + 31`, which writes back. -/
theorem cover5 (i : S4x1x1.Idx) :
    ∃ t : Fin cfg0.N, (cfg0.win 5).flush t = true ∧ i ∈ ((cfg0.win 5).blk t).view.set := by
  have i0 : (i 0).val < 4 := (i 0).isLt
  have i1 : (i 1).val < 1 := (i 1).isLt
  have i2 : (i 2).val < 1 := (i 2).isLt
  have hlt : 32 * (i 0).val + 31 < cfg0.N := lt_of_lt_of_eq (by omega) N_0.symm
  obtain ⟨e0, e1, e2⟩ := idx5 ⟨32 * (i 0).val + 31, hlt⟩
  refine ⟨⟨32 * (i 0).val + 31, hlt⟩, (flush0_5 _).mpr (by dsimp only; omega), ?_⟩
  rw [mem_blk5]
  intro a
  match a with
  | ⟨0, _⟩ =>
    show win0_5.index ⟨32 * (i 0).val + 31, hlt⟩ (0 : Fin 3) * 1 ≤ (i 0).val
      ∧ (i 0).val < win0_5.index ⟨32 * (i 0).val + 31, hlt⟩ (0 : Fin 3) * 1 + 1
    rw [e0]; dsimp only; omega
  | ⟨1, _⟩ =>
    show win0_5.index ⟨32 * (i 0).val + 31, hlt⟩ (1 : Fin 3) * 1 ≤ (i 1).val
      ∧ (i 1).val < win0_5.index ⟨32 * (i 0).val + 31, hlt⟩ (1 : Fin 3) * 1 + 1
    rw [e1]; omega
  | ⟨2, _⟩ =>
    show win0_5.index ⟨32 * (i 0).val + 31, hlt⟩ (2 : Fin 3) * 1 ≤ (i 2).val
      ∧ (i 2).val < win0_5.index ⟨32 * (i 0).val + 31, hlt⟩ (2 : Fin 3) * 1 + 1
    rw [e2]; omega

/-- THE THIRD ARRAY after the run is `G`, given the staged word after the last tile of every batch. -/
theorem final5 (c : Dev nD) (G : S4x1x1.Idx → Elt F .f32)
    (h : ∀ (t : Fin cfg0.N), t.val % 32 = 31 → (outsAt0 m c t.val t.isLt).2.2 (ix3 0 0 0)
      = G (ix3 ⟨t.val / 32, bOf_lt t⟩ 0 0)) :
    (dats m 0 c).arrAt 5 cfg0.N = G :=
  (dats m 0 c).arrAt_eq_of_cover 5 G (fun t hf => flushed5_eq m c G h t hf) cover5

end Cert.KernelIdeal.Final

end
-- ==== Proof.Tail.lean ====
/-
  The host tail of the kernel program: the lines of @main after the region, as one pure term of the three output arrays.

  The lines are three sums over all axes — of the arrays [4, 8192, 1], [4, 1, 8192] and [4, 1, 1], each from the word
  of 0.0 —, each divided by 32768; the first two quotients added and clipped to [0, 1e6] (a maximum with the lower
  bound, then a minimum with the upper one), times 1.0, plus 0.1 times the third quotient. Read at the result buffer,
  that composed term is `Chamfer.loss` of the three sums (`tail_v12`, at any float instance: no literal is evaluated).

  At the ideal values a sum over all axes is the initial value plus the sum over every index; an index of a rank-3
  shape is its three coordinates, and a unit axis's sum is its one term. So each of the three sums is the matching
  scalar of the specification, once the array's entries are the specification's entries (`sumX`, `sumY`, `sumD`).
-/
import proofs.«110999_j3298534884131_1_alg».proof.Proof.Gen.KernelIdeal.Frame
import proofs.«110999_j3298534884131_1_alg».proof.Proof.Spec
import Idealize.ShloMosaic.Lib.Pipeline.Value
import Idealize.ShloMosaic.Lib.StableHlo.Run
import Idealize.ShloMosaic.PureOps.Ideal.Laws
import Idealize.ShloMosaic.Lib.ValueIdx

set_option maxRecDepth 16384

noncomputable section

namespace Cert.KernelIdeal.Tail

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open scoped BigOperators

/-! ## The host tail, generic in the float instance -/

section Generic

variable {F : FTy → Type} [FloatOps F]
variable (m : (ℓ : Loc nD τ sig) → Buf (Elt F) ℓ)

/-- What the lines after the region find at output array 3 (the first result): the array as the region leaves it. -/
theorem arr_v1_0 (c : Dev nD) :
    Pipeline.withArrays (cfgs 0).spec c (V0 m c) (fun w => (dats m 0 c).arrAt w (cfgs 0).N) (Proc.devRef .tc main_v1_0)
      = (dats m 0 c).arrAt 3 cfg0.N :=
  Pipeline.withArrays_arr spec0 launch0.win.arr_inj c (V0 m c) (fun w => (dats m 0 c).arrAt w (cfgs 0).N) 3
/-- Likewise output array 4. -/
theorem arr_v1_1 (c : Dev nD) :
    Pipeline.withArrays (cfgs 0).spec c (V0 m c) (fun w => (dats m 0 c).arrAt w (cfgs 0).N) (Proc.devRef .tc main_v1_1)
      = (dats m 0 c).arrAt 4 cfg0.N :=
  Pipeline.withArrays_arr spec0 launch0.win.arr_inj c (V0 m c) (fun w => (dats m 0 c).arrAt w (cfgs 0).N) 4
/-- Likewise output array 5. -/
theorem arr_v1_2 (c : Dev nD) :
    Pipeline.withArrays (cfgs 0).spec c (V0 m c) (fun w => (dats m 0 c).arrAt w (cfgs 0).N) (Proc.devRef .tc main_v1_2)
      = (dats m 0 c).arrAt 5 cfg0.N :=
  Pipeline.withArrays_arr spec0 launch0.win.arr_inj c (V0 m c) (fun w => (dats m 0 c).arrAt w (cfgs 0).N) 5

set_option maxHeartbeats 1600000 in
/-- The result buffer after the lines that follow the region: each line's result is its function of its operands'
    contents, the three reductions read the three output arrays as the region leaves them, and the composed term is
    `Chamfer.loss` of the three sums (the inlined clip's transports between a value's type and its buffer's are the
    identity). -/
theorem tail_v12 (c : Dev nD) :
    Pipeline.afterTail₀ cfgs (dats m) 0 (V0 m) [hostOps1, hostOps1_1, hostOps1_2] c main_v12
      = Chamfer.loss
          (Host.reduceAdd ((dats m 0 c).arrAt 3 cfg0.N) (constant S_ .f32 0x00000000#32) reducesTo_S4x8192x1_S_d0_1_2 h_S_)
          (Host.reduceAdd ((dats m 0 c).arrAt 4 cfg0.N) (constant S_ .f32 0x00000000#32) reducesTo_S4x1x8192_S_d0_1_2 h_S_)
          (Host.reduceAdd ((dats m 0 c).arrAt 5 cfg0.N) (constant S_ .f32 0x00000000#32) reducesTo_S4x1x1_S_d0_1_2 h_S_) := by
  unfold Pipeline.afterTail₀
  simp only [hostOps1, hostOps1_1, hostOps1_2, List.flatten_cons, List.flatten_nil, List.append_nil, List.cons_append, List.nil_append]
  after_results_simp
  rw [arr_v1_0 m c, arr_v1_1 m c, arr_v1_2 m c]
  rfl

end Generic

/-! ## The three sums at the ideal values -/

/-- The first sum: the initial word is `0.0`, every axis is reduced, so the value is `0 + Σ_b Σ_n Σ_(a : Fin 1) A[b,n,a]`;
    the unit axis's sum is its one term, which is `nnx` by hypothesis. -/
theorem sumX (A : S4x8192x1.Idx → EReal) (P T : Chamfer.Pts.Idx → EReal)
    (h : ∀ (b : Fin 4) (n : Fin 8192), A (ix3 b n 0) = Chamfer.nnx P T b n) :
    Host.reduceAdd (F := Ideal) A (constant S_ .f32 0x00000000#32) reducesTo_S4x8192x1_S_d0_1_2 h_S_
      = fun _ => Chamfer.SX P T := by
  funext i
  simp only [Host.reduceAdd, Ideal.hostReduceAdd_def]
  refine (Ideal.hostReduceAdd_total reducesTo_S4x8192x1_S_d0_1_2 (fun b => b.elim0) A _ i).trans ?_
  unfold Chamfer.SX
  refine congrArg₂ (· + ·) rfl ?_
  rw [Chamfer.sum_idx3]
  refine Finset.sum_congr rfl fun b _ => Finset.sum_congr rfl fun n _ => ?_
  rw [Fin.sum_univ_one]
  exact h b n

/-- The second sum: `0 + Σ_b Σ_(a : Fin 1) Σ_k A[b,a,k]`, the unit axis in the middle. -/
theorem sumY (A : S4x1x8192.Idx → EReal) (P T : Chamfer.Pts.Idx → EReal)
    (h : ∀ (b : Fin 4) (k : Fin 8192), A (ix3 b 0 k) = Chamfer.nny P T b k) :
    Host.reduceAdd (F := Ideal) A (constant S_ .f32 0x00000000#32) reducesTo_S4x1x8192_S_d0_1_2 h_S_
      = fun _ => Chamfer.SY P T := by
  funext i
  simp only [Host.reduceAdd, Ideal.hostReduceAdd_def]
  refine (Ideal.hostReduceAdd_total reducesTo_S4x1x8192_S_d0_1_2 (fun b => b.elim0) A _ i).trans ?_
  unfold Chamfer.SY
  refine congrArg₂ (· + ·) rfl ?_
  rw [Chamfer.sum_idx3]
  refine Finset.sum_congr rfl fun b _ => ?_
  rw [Fin.sum_univ_one]
  exact Finset.sum_congr rfl fun k _ => h b k

/-- The third sum: `0 + Σ_b Σ_(a : Fin 1) Σ_(a' : Fin 1) A[b,a,a']`, both unit axes collapsing. -/
theorem sumD (A : S4x1x1.Idx → EReal) (D : Chamfer.Dens.Idx → EReal)
    (h : ∀ b : Fin 4, A (ix3 b 0 0) = Chamfer.absRow D b) :
    Host.reduceAdd (F := Ideal) A (constant S_ .f32 0x00000000#32) reducesTo_S4x1x1_S_d0_1_2 h_S_
      = fun _ => Chamfer.SD D := by
  funext i
  simp only [Host.reduceAdd, Ideal.hostReduceAdd_def]
  refine (Ideal.hostReduceAdd_total reducesTo_S4x1x1_S_d0_1_2 (fun b => b.elim0) A _ i).trans ?_
  unfold Chamfer.SD
  refine congrArg₂ (· + ·) rfl ?_
  rw [Chamfer.sum_idx3]
  refine Finset.sum_congr rfl fun b _ => ?_
  rw [Fin.sum_univ_one, Fin.sum_univ_one]
  exact h b

end Cert.KernelIdeal.Tail

end
-- ==== Proof.KernelValue.lean ====
/-
  The idealized kernel's run, read: its result is `Chamfer.result` of the three argument arrays.

  After the last point of batch b the targets' buffer has seen all 32 tiles, so column k holds nny P T b k, and the density
  buffer holds the whole row sum; these two are written back exactly then. The predictions' buffer is written back at
  every point, row r of tile j to row 256 j + r. So the three output arrays of the call are nnx, nny and the row sums,
  the host lines after the call sum each over all its entries (an array with a unit axis is summed over the other
  two), and the scalar tail is the same `loss` the reference ends with.
-/
import proofs.«110999_j3298534884131_1_alg».proof.Proof.Invariant
import proofs.«110999_j3298534884131_1_alg».proof.Proof.Final
import proofs.«110999_j3298534884131_1_alg».proof.Proof.Tail

noncomputable section

open Idealize.ShloMosaic Idealize.ShloMosaic.TcCoe Idealize.SL.Sem Idealize.ShloMosaic.ValueIdx
open Idealize.ShloMosaic.Pipeline (Dat)
open scoped BigOperators

namespace Cert.KernelIdeal.KValue

open Cert.KernelIdeal Cert.KernelIdeal.Gen Cert.KernelIdeal.Blocks Cert.KernelIdeal.Inv Chamfer

variable (m : (ℓ : Loc nD τ sig) → Buf (Elt Ideal) ℓ) (ρ : Dev nD → PrngReg)

/-- Every point of the grid is some `(b, j)`. -/
theorem exists_pt (t : Fin cfg0.N) : ∃ (b j : ℕ) (hb : b < 4) (hj : j < 32), t = pt b j hb hj := by
  have hN : t.val < 128 := lt_of_lt_of_eq t.isLt (show cfg0.N = 128 from N_0)
  exact ⟨t.val / 32, t.val % 32, by omega, Nat.mod_lt _ (by decide),
    Fin.ext (by show t.val = 32 * (t.val / 32) + t.val % 32; omega)⟩

/-- The three output arrays of the call: nearest-target distances, nearest-prediction distances, row sums. -/
def G3 (c : Dev nD) : S4x8192x1.Idx → EReal :=
  fun i => nnx (P m c) (T m c) ⟨(i 0).val, (i 0).isLt⟩ ⟨(i 1).val, (i 1).isLt⟩
def G4 (c : Dev nD) : S4x1x8192.Idx → EReal :=
  fun i => nny (P m c) (T m c) ⟨(i 0).val, (i 0).isLt⟩ ⟨(i 2).val, (i 2).isLt⟩
def G5 (c : Dev nD) : S4x1x1.Idx → EReal :=
  fun i => absRow (D m c) ⟨(i 0).val, (i 0).isLt⟩

theorem arr3 (c : Dev nD) : (dats m 0 c).arrAt 3 cfg0.N = G3 m c :=
  Final.final3 m c (G3 m c) fun t r => by
    obtain ⟨b, j, hb, hj, rfl⟩ := exists_pt t
    rw [inv3 m c b j hb hj r]
    show _ = nnx (P m c) (T m c) (bOf (pt b j hb hj)) (rowOf (pt b j hb hj) r)
    rw [bOf_pt, rowOf_pt]

theorem arr4 (c : Dev nD) : (dats m 0 c).arrAt 4 cfg0.N = G4 m c :=
  Final.final4 m c (G4 m c) fun t ht k => by
    obtain ⟨b, j, hb, hj, rfl⟩ := exists_pt t
    obtain rfl : j = 31 := by
      have : (32 * b + j) % 32 = 31 := ht
      omega
    rw [inv4 m c b hb k 31 hj, min_firstTiles_all]
    show _ = nny (P m c) (T m c) (bOf (pt b 31 hb hj)) k
    rw [bOf_pt]
    rfl

theorem arr5 (c : Dev nD) : (dats m 0 c).arrAt 5 cfg0.N = G5 m c :=
  Final.final5 m c (G5 m c) fun t ht => by
    obtain ⟨b, j, hb, hj, rfl⟩ := exists_pt t
    obtain rfl : j = 31 := by
      have : (32 * b + j) % 32 = 31 := ht
      omega
    rw [inv5 m c b hb 31 hj, sum_firstTiles_all]
    show _ = absRow (D m c) (bOf (pt b 31 hb hj))
    rw [bOf_pt]
    rfl

/-- The result buffer after the host lines that follow the call. -/
theorem result_eq (c : Dev nD) :
    Pipeline.afterTail₀ cfgs (dats m) 0 (V0 m) [hostOps1, hostOps1_1, hostOps1_2] c main_v12
      = Chamfer.result (m ((c : Thread nD τ).loc main_arg0)) (m ((c : Thread nD τ).loc main_arg1))
          (m ((c : Thread nD τ).loc main_arg2)) := by
  rw [Tail.tail_v12 m c, arr3, arr4, arr5,
    Tail.sumX (G3 m c) (P m c) (T m c) (fun _ _ => rfl), Tail.sumY (G4 m c) (P m c) (T m c) (fun _ _ => rfl),
    Tail.sumD (G5 m c) (D m c) (fun _ => rfl)]
  show Chamfer.loss (F := Ideal) (fun _ => SX (V m c main_arg0) (V m c main_arg1))
      (fun _ => SY (V m c main_arg0) (V m c main_arg1)) (fun _ => SD (D m c)) = _
  rw [V_main_arg0 m c, V_main_arg1 m c]
  rfl

/-- Every weakly fair execution of the idealized kernel's program terminates with the result at `Chamfer.result` of the
    argument arrays, which end unchanged. -/
theorem run : θ_run defs (onTc (τ := τ) (main (F := Ideal))) ⟨m, fun _ => 0, ρ⟩ fun r => ∀ c : Dev nD,
      r.2.mem ((c.tc : Thread nD τ).loc main_v12)
        = Chamfer.result (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v12 (Pipeline.mem_restRefs_of main_v12 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KValue

end
-- ==== Proof.lean ====
/-
  The certificate: a Pallas kernel computing a bidirectional nearest-neighbour (chamfer) loss plus a density term, against
  its jnp reference, over the extended reals.

  Both programs compute, from point clouds P, T : [4, 8192, 3] and densities D : [4, 8192],
      1.0 · clip(mean_n min_k d2 + mean_k min_n d2, 0, 1e6) + 0.1 · mean |D|,
  with d2(b, n, k) = max(‖P[b,n]‖² + ‖T[b,k]‖² − 2 P[b,n]·T[b,k], 0)  (`Chamfer.result`, Proof/Spec.lean).
  The reference forms the whole [4, 8192, 8192] distance array and reduces it along each axis. The kernel walks a 4 × 32
  grid: at point (b, j) it forms the [256, 8192] tile of the predictions 256 j … 256 j + 255 (squared norms by a lane sum
  and by a contraction with a row of ones, the cross term by a contraction), writes the tile's row minima out, folds its
  column minima into a buffer carried over the 32 tiles of a batch (reset to +∞ at tile 0), and likewise accumulates the
  tile's absolute densities (reset to 0 at tile 0); the host lines after the call sum the three output arrays.
  Over the extended reals the two agree: a contraction with ones is the plain sum (1 · x = x), a minimum over all
  predictions is the minimum of the tiles' minima, a sum over a row is the sum of the tiles' sums, and every literal
  is the same word on both sides. No law used needs the inputs finite, so the precondition is never opened.

  The frames of the two kernel programs are the generated ones; the reference's frame is its generated run with the result
  dropped; the ideal pass rewrote nothing, so the kernel's idealization is its own text read at the ideal values.
-/
import proofs.«110999_j3298534884131_1_alg».proof.Defs
import proofs.«110999_j3298534884131_1_alg».proof.Proof.Gen.Kernel
import proofs.«110999_j3298534884131_1_alg».proof.Proof.Gen.Kernel.Skeleton
import proofs.«110999_j3298534884131_1_alg».proof.Proof.Gen.Kernel.Launch
import proofs.«110999_j3298534884131_1_alg».proof.Proof.Gen.Kernel.Points
import proofs.«110999_j3298534884131_1_alg».proof.Proof.Gen.Kernel.Frame
import proofs.«110999_j3298534884131_1_alg».proof.Proof.Gen.KernelIdeal
import proofs.«110999_j3298534884131_1_alg».proof.Proof.Gen.KernelIdeal.Skeleton
import proofs.«110999_j3298534884131_1_alg».proof.Proof.Gen.KernelIdeal.Launch
import proofs.«110999_j3298534884131_1_alg».proof.Proof.Gen.KernelIdeal.Points
import proofs.«110999_j3298534884131_1_alg».proof.Proof.Gen.KernelIdeal.Frame
import proofs.«110999_j3298534884131_1_alg».proof.Proof.Gen.ReferenceIdeal
import proofs.«110999_j3298534884131_1_alg».proof.Proof.Gen.ReferenceIdeal.Run
import proofs.«110999_j3298534884131_1_alg».proof.Proof.Gen.ReferenceIdeal.Read
import proofs.«110999_j3298534884131_1_alg».proof.Proof.Gen.Pre_finite_inputs
import proofs.«110999_j3298534884131_1_alg».proof.Proof.RefRead
import proofs.«110999_j3298534884131_1_alg».proof.Proof.RefValue
import proofs.«110999_j3298534884131_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the three arguments both programs end with the result at `Chamfer.result` of them. -/
theorem algebraic : Cert.algebraic_KernelIdeal_ReferenceIdeal := by
  intro m ρ m' ρ' _ hagree
  refine ⟨fun c => Chamfer.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
